-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 50257#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x50257 : Shape := ⟨2, ![4096, 50257]⟩
abbrev S4096 : Shape := ⟨1, ![4096]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S4096, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v45 : BitVec 1 := Scalar.cmpi .eq arg1 c49_i32
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  shapeCasts_S4096x1_S4096 : S4096x1.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1024.size a < S4096x50257.size a
  hwx0_0 : ∀ i : grid0.Coords, EltTy.bits .f32 = 32 ∨ (Rect.unit (s := S4096x50257) (fun a => cc0_transform_0 i a * S1024x1024.size a) (fun a => (Pipeline.Clip.of (cc0_transform_0 i a) (S1024x1024.size a) (S4096x50257.size a)).extent (S1024x1024.size a)) fun a => Pipeline.Clip.inb (Pipeline.Clip.ok_of (hstart0_0 i a))).WholeWords (EltTy.packing .f32)
  hwxs0_0 : ∀ i : grid0.Coords, EltTy.bits .f32 = 32 ∨ (Rect.unit (s := S1024x1024) (fun _ => 0) (fun a => (Pipeline.Clip.of (cc0_transform_0 i a) (S1024x1024.size a) (S4096x50257.size a)).extent (S1024x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .i32 = 32 ∨ (Rect.block (s := S4096x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

abbrev win0_0 : Pipeline.Window sig grid0 :=
  Pipeline.Window.ofSpecClip (Memref.whole main_arg0) S1024x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S4096, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.KConds.lean ====
/-
  The two conditions the kernel body branches on, as propositions over the grid coordinates, and over the grid's
  200 points (4 row blocks by 50 column blocks, the column block the fast coordinate) where each holds: the first
  column block of a row block (the running statistics are reset there) and the last (the result block is stored
  there and written back); where the result window is idle.
-/
import proofs.«416316_j58136677319100_1_alg».proof.Proof.Gen.Kernel.Launch
import proofs.«416316_j58136677319100_1_alg».proof.Proof.Gen.Kernel.Points
import proofs.«416316_j58136677319100_1_alg».proof.Proof.Gen.Kernel.Skeleton

noncomputable section

namespace Cert.Kernel.Hand

open Idealize.ShloMosaic Idealize.ShloMosaic.TcCoe Idealize.SL.Sem
open Cert.Kernel Cert.Kernel.Gen

/-- The body's first branch: the point is the first column block of its row block. -/
abbrev condFirst (i : grid0.Coords) : Prop :=
  (Scalar.cmpi .ne (Scalar.extui (Scalar.cmpi .eq (BitVec.ofNat 32 (i 1).val) 0#32)) 0#32) = 1#1
/-- The body's second branch: the point is the last column block of its row block. -/
abbrev condLast (i : grid0.Coords) : Prop := k0_cond2 i = 1#1

theorem condFirst_iff : ∀ t : Fin cfg0.N, condFirst (grid0.coords t) ↔ t.val % 50 = 0 :=
  (by decide +kernel : ∀ t : Fin grid0.N, condFirst (grid0.coords t) ↔ t.val % 50 = 0)
theorem condLast_iff : ∀ t : Fin cfg0.N, condLast (grid0.coords t) ↔ t.val % 50 = 49 :=
  (by decide +kernel : ∀ t : Fin grid0.N, condLast (grid0.coords t) ↔ t.val % 50 = 49)

/-- The coordinates of point `t`: row block `t / 50`, column block `t % 50`. -/
theorem coords_row : ∀ t : Fin cfg0.N, ((grid0.coords t) 0).val = t.val / 50 :=
  (by decide +kernel : ∀ t : Fin grid0.N, ((grid0.coords t) 0).val = t.val / 50)
theorem coords_col : ∀ t : Fin cfg0.N, ((grid0.coords t) 1).val = t.val % 50 :=
  (by decide +kernel : ∀ t : Fin grid0.N, ((grid0.coords t) 1).val = t.val % 50)

/-- The input windows are never idle; the result window is idle exactly off the last column block, and is
    written back exactly there. -/
theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬condLast (grid0.coords t) → cfg0.idle 2 (grid0.coords t) = true := by decide +kernel
theorem live_2 : ∀ t : Fin cfg0.N, condLast (grid0.coords t) → cfg0.idle 2 (grid0.coords t) = false := by decide +kernel
theorem noFlush_2 : ∀ t : Fin cfg0.N, ¬condLast (grid0.coords t) → (cfg0.win 2).flush t = false := by decide +kernel

theorem N_eq : cfg0.N = 200 := by decide +kernel

end Cert.Kernel.Hand

end
-- ==== Proof.KStats.lean ====
/-
  The three running statistics of the online softmax as functions of one block: names for the body's payloads.
-/
import proofs.«416316_j58136677319100_1_alg».proof.Proof.KConds

set_option maxRecDepth 16384

noncomputable section

namespace Cert.Kernel.Hand

open Idealize.ShloMosaic Idealize.SL.Sem
open Cert.Kernel Cert.Kernel.Gen

variable {F : FTy → Type} [FloatOps F]

/-- What one run of the body leaves in the three statistics buffers, from the staged logits block `X0`, the staged
    label block `X1` and the statistics `(M, L, T)` it starts from: the new running maximum, the rescaled running
    sum of exponentials, the running picked entry. -/
def newM (i : grid0.Coords) (X0 : Vec F S1024x1024 .f32) (M : Vec F S1024x1 .f32) : Vec F S1024x1 .f32 := k0_pay10 i X0 M
def newL (i : grid0.Coords) (X0 : Vec F S1024x1024 .f32) (M L : Vec F S1024x1 .f32) : Vec F S1024x1 .f32 := k0_pay9 i X0 M L
def newT (i : grid0.Coords) (X0 : Vec F S1024x1024 .f32) (X1 : Vec F S1024x1 .i32) (T : Vec F S1024x1 .f32) : Vec F S1024x1 .f32 :=
  k0_pay1 X0 (k0_pay11 i X1) T

end Cert.Kernel.Hand

end
-- ==== Proof.KData.lean ====
/-
  What the pipeline's buffers hold point by point: the logits block and the label block each point stages, the three
  running statistics after each point — reset at the first column block of a row block, then updated block by block —,
  the result block stored at the last column block; and the proof data stating them.
-/
import proofs.«416316_j58136677319100_1_alg».proof.Proof.KConds
import proofs.«416316_j58136677319100_1_alg».proof.Proof.KStats
import proofs.«416316_j58136677319100_1_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs and the statistics buffers -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The running maximum, the running sum and the running picked entry live in three buffers of the kernel's own. -/
abbrev scM : Memref sig .tc .vmem S1024x1 .f32 := Memref.whole cc0_scratch0
abbrev scL : Memref sig .tc .vmem S1024x1 .f32 := Memref.whole cc0_scratch1
abbrev scT : Memref sig .tc .vmem S1024x1 .f32 := Memref.whole cc0_scratch2

/-- Before the first point and after the last the three buffers hold anything. -/
theorem PhiA_eq (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scT fullShare d)) ∗ (∃ r, prngReg c r)) := by
  unfold Pipeline.ΦA; rw [scopedRest0_eq]; simp only [scM, scL, scT, owns_whole]; try rfl

/-! ## The staged blocks -/

/-- Past the table's last column a staged logits block holds words nothing names; where a value must be written
    down, zero stands there. -/
def zfill : S1024x1024.Idx → Elt F .f32 := fun _ => Scalar.ofBits .f32 0#32

/-- The logits block of point `t` as staged. -/
def xst (c : Dev nD) (t : Fin cfg0.N) : Vec F S1024x1024 .f32 :=
  win0_0.fill (grid0.coords t) zfill (iblk m c 0 t)

/-- The label block of point `t`. -/
def lst (c : Dev nD) (t : Fin cfg0.N) : Vec F S1024x1 .i32 := iblk m c 1 t

/-! ## The statistics after each point -/

abbrev Stats (F : FTy → Type) : Type := Vec F S1024x1 .f32 × Vec F S1024x1 .f32 × Vec F S1024x1 .f32

/-- The statistics a row block starts from: `(-∞, 0, 0)`. -/
def stats0 : Stats F := (k0_pay3, k0_pay4, k0_pay5)

/-- One block's update. -/
def statsStep (c : Dev nD) (t : Fin cfg0.N) (s : Stats F) : Stats F :=
  (newM (grid0.coords t) (xst m c t) s.1, newL (grid0.coords t) (xst m c t) s.1 s.2.1,
    newT (grid0.coords t) (xst m c t) (lst m c t) s.2.2)

/-- The statistics after point `n`: at the first column block of a row block from the reset values, else from what
    the point before left. -/
def statsAt (c : Dev nD) : (n : ℕ) → n < cfg0.N → Stats F
  | 0, hn => statsStep m c ⟨0, hn⟩ stats0
  | n + 1, hn =>
    if (n + 1) % 50 = 0 then statsStep m c ⟨n + 1, hn⟩ stats0
    else statsStep m c ⟨n + 1, hn⟩ (statsAt c n (Nat.lt_of_succ_lt hn))

theorem statsAt_first (c : Dev nD) (t : Fin cfg0.N) (h : t.val % 50 = 0) :
    statsAt m c t.val t.isLt = statsStep m c t stats0 := by
  obtain ⟨n, hn⟩ := t
  cases n with
  | zero => rfl
  | succ n => exact (if_pos h)

theorem statsAt_next (c : Dev nD) (t : Fin cfg0.N) (h : ¬t.val % 50 = 0) :
    statsAt m c t.val t.isLt = statsStep m c t (statsAt m c (t.val - 1) (Nat.lt_of_le_of_lt (Nat.sub_le _ _) t.isLt)) := by
  obtain ⟨n, hn⟩ := t
  cases n with
  | zero => exact absurd (Nat.zero_mod _) h
  | succ n => exact (if_neg h)

/-- The result block stored at a last column block: `M + log L - T` of the statistics there. -/
def outAt (c : Dev nD) (t : Fin cfg0.N) : Vec F S1024x1 .f32 :=
  k0_pay2 (statsAt m c t.val t.isLt).1 (statsAt m c t.val t.isLt).2.1 (statsAt m c t.val t.isLt).2.2

/-! ## The invariant and the proof data -/

/-- Before point `n`: nothing known of the three buffers before the first point; afterwards they hold the
    statistics the point before left. -/
def PhiS (c : Dev nD) : (n : ℕ) → n ≤ cfg0.N → sProp 𝕄
  | 0, _ => Pipeline.ΦA spec0 c
  | n + 1, hn => iprop(iprop(owns (c : Thread nD τ) scM fullShare (statsAt m c n hn).1
      ∗ owns (c : Thread nD τ) scL fullShare (statsAt m c n hn).2.1
      ∗ owns (c : Thread nD τ) scT fullShare (statsAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (statsAt m c n hn).1
      ∗ owns (c : Thread nD τ) scL fullShare (statsAt m c n hn).2.1
      ∗ owns (c : Thread nD τ) scT fullShare (statsAt m c n hn).2.2) ∗ (∃ r, prngReg c r)) := rfl

theorem PhiS_pos (c : Dev nD) (n : ℕ) (h : n ≤ cfg0.N) (hz : n ≠ 0) :
    PhiS m c n h = iprop(iprop(owns (c : Thread nD τ) scM fullShare (statsAt m c (n - 1) (by omega)).1
      ∗ owns (c : Thread nD τ) scL fullShare (statsAt m c (n - 1) (by omega)).2.1
      ∗ owns (c : Thread nD τ) scT fullShare (statsAt m c (n - 1) (by omega)).2.2) ∗ (∃ r, prngReg c r)) := by
  cases n with
  | zero => exact absurd rfl hz
  | succ n => rfl

/-- The proof data of the one pipeline on core `c`: the arrays as the region finds them; after the body each input's
    buffer at its block, the result's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xst m c t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xst m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- What the body finds: the logits buffer just fetched — the block on the columns inside the table, `d` past them —, -/
theorem before_0 (c : Dev nD) (t : Fin cfg0.N) (d) :
    (dats m 0 c).before 0 t d = win0_0.fill (grid0.coords t) d (iblk m c 0 t) := by
  unfold Dat.before; rw [if_pos (fetch0_0 t)]; rfl

/-- the label buffer at its block, fetched there or not. -/
theorem before_1 (c : Dev nD) (t : Fin cfg0.N) (d) : (dats m 0 c).before 1 t d = iblk m c 1 t :=
  before0_1_of m (dats m 0 c) (A_eq m c 1) (after_1 m c) t d

/-- What the logits buffer is handed back holding is, on the columns inside the table, the block. -/
theorem cut_after_0 (c : Dev nD) (t : Fin cfg0.N) :
    (cfg0.win 0).cut (grid0.coords t) ((dats m 0 c).after 0 t) = iblk m c 0 t := by
  rw [after_0]; exact win0_0.cut_fill _ _ _

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HT⟩, Hg⟩
  isplitl [HM HL HT]
  · isplitl [HM]
    · iexists _; iexact HM
    isplitl [HL]
    · iexists _; iexact HL
    · iexists _; iexact HT
  iexact Hg

theorem hout (c : Dev nD) : (dats m 0 c).Φ (Fin.last cfg0.N) ⊢ Pipeline.ΦA spec0 c :=
  Phi_out m c _ (by rw [Fin.val_last]; have : cfg0.N = 200 := N_eq; omega)

/-! ## The labels inside the table's columns -/

/-- Every label word, read unsigned, is a column of the table. -/
def LabelsOk : Prop := ∀ (c : Dev nD) (r : S4096.Idx), (m ((c : Thread nD τ).loc main_arg1) r).toNat < 50257

/-- The label column the region finds is the label vector under another shape. -/
theorem V_labels (c : Dev nD) :
    (V m c main_v0 : S4096x1.Idx → BitVec 32) = shapeCast S4096x1 (m ((c : Thread nD τ).loc main_arg1)) shapeCasts_S4096_S4096x1 := by
  dsimp only [V, V0]
  simp only [hostOps0, List.flatten_cons, List.flatten_nil, List.append_nil, List.cons_append, List.nil_append]
  after_results
  rfl

/-- So every word of a staged label block is a column of the table. -/
theorem lst_ok (hT : LabelsOk m) (c : Dev nD) (t : Fin cfg0.N) (y : S1024x1.Idx) : (lst m c t y).toNat < 50257 := by
  show ((V m c main_v0 : S4096x1.Idx → BitVec 32) _).toNat < 50257
  rw [V_labels]
  exact hT c _

end Cert.Kernel.Hand

end
-- ==== Proof.LibWhole.lean ====
/-
  Two facts about a two-axis buffer accessed only through its whole rectangle (offset zero on both axes, the buffer's
  own extents): reading back after a list of stores whose LAST one went through the whole rectangle gives that store's
  payload, whatever the earlier stores and the prior contents were; and a load through the whole rectangle — of the
  contents, or of what one such store left — is the contents, respectively that store's payload.
-/
import Idealize.ShloMosaic.Lib.Pipeline.FrameBody
import Idealize.ShloMosaic.Lib.Pipeline.Value

noncomputable section

namespace Cert.Whole

open Idealize.ShloMosaic

variable {Val : EltTy → Type} [∀ e, Nonempty (Val e)] {sig : RefSig} {κ : Kind} {sp : Space} {e : EltTy} {n0 n1 : ℕ}

/-- Both offsets of the whole rectangle are zero. -/
theorem hz : (![0, 0] : Fin 2 → ℕ) = fun _ => 0 := by
  funext a
  match a with
  | ⟨0, _⟩ => rfl
  | ⟨1, _⟩ => rfl

/-- After stores the last of which covers the buffer, the buffer reads as that store's payload. -/
theorem read_writes_cons (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) (L : List (View.Piece Val ⟨2, ![n0, n1]⟩ e)) :
    v.read Val (v.writes Val f ((⟨Rect.unit (s := ⟨2, ![n0, n1]⟩) ![0, 0] (⟨2, ![n0, n1]⟩ : Shape).size inb, w⟩ : View.Piece Val ⟨2, ![n0, n1]⟩ e) :: L)) = w := by
  rw [View.read_writes_eq_canon _ _ _ (fun y => ⟨_, List.mem_cons_self, by
    have h := hz
    show y ∈ (Rect.unit (s := ⟨2, ![n0, n1]⟩) ![0, 0] (⟨2, ![n0, n1]⟩ : Shape).size inb).set
    rw [Rect.mem_set_unit]
    intro a
    constructor
    · rw [congrFun h a]; exact Nat.zero_le _
    · rw [congrFun h a, Nat.zero_add]; exact (y a).isLt⟩), View.canon_cons_unit_zero hz]

/-- A load through the whole rectangle reads the contents. -/
theorem readAt_whole (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = v.read Val f := by
  rw [View.readAt_eq_ld, View.ld_unit_zero hz]

/-- A load through the whole rectangle of what one store through it left reads that store's payload. -/
theorem readCov_whole (v : View sig κ sp ⟨2, ![n0, n1]⟩ e)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) :
    v.readCov [(⟨Rect.unit (s := ⟨2, ![n0, n1]⟩) ![0, 0] (⟨2, ![n0, n1]⟩ : Shape).size inb, w⟩ : View.Piece Val ⟨2, ![n0, n1]⟩ e)]
      (Rect.unit (s := ⟨2, ![n0, n1]⟩) ![0, 0] (⟨2, ![n0, n1]⟩ : Shape).size inb).toLoadRect = w :=
  View.readCov_unit_zero v hz inb w

end Cert.Whole

end
-- ==== Proof.KRuns.lean ====
/-
  The kernel body's three triples: on whole buffers holding the staged logits block, the staged label block, the
  result block and the three running statistics, one run of the body ends with the inputs as they were and the
  statistics updated; at the first column block the statistics are reset before the update, at the last the result
  block is stored from the updated statistics. Every access of the body is a load or a store of a whole buffer, so
  a buffer read back after the body's stores holds the payload of the last store into it, and a load after a store
  reads that store's payload.
-/
import proofs.«416316_j58136677319100_1_alg».proof.Proof.KConds
import proofs.«416316_j58136677319100_1_alg».proof.Proof.LibWhole
import proofs.«416316_j58136677319100_1_alg».proof.Proof.KStats
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A column block that is neither the first nor the last of its row block: the statistics are updated, the result
    block is left as it was found. -/
theorem run_mid (c : Dev nD) (i : grid0.Coords)
    (a2 : Memref sig .tc .vmem S1024x1024 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (hf : ¬condFirst i) (hl : ¬condLast i)
    (X0 : Vec F S1024x1024 .f32) (X1 : Vec F S1024x1 .i32) (XO M L T : Vec F S1024x1 .f32) (E : Set ℕ) (K : PUnit → sProp 𝕄) :
    iprop(owns (c : Thread nD τ) a2 fullShare X0 ∗ owns (c : Thread nD τ) a3 fullShare X1 ∗ owns (c : Thread nD τ) a4 fullShare XO
          ∗ owns (c : Thread nD τ) a5 fullShare M ∗ owns (c : Thread nD τ) a6 fullShare L ∗ owns (c : Thread nD τ) a7 fullShare T
          ∗ (iprop(owns (c : Thread nD τ) a2 fullShare X0 ∗ owns (c : Thread nD τ) a3 fullShare X1 ∗ owns (c : Thread nD τ) a4 fullShare XO
                ∗ owns (c : Thread nD τ) a5 fullShare (newM i X0 M) ∗ owns (c : Thread nD τ) a6 fullShare (newL i X0 M L)
                ∗ owns (c : Thread nD τ) a7 fullShare (newT i X0 X1 T)) -∗ K ⟨⟩))
      ⊢ wp frame (wpE (defs₀ (F := F)) Variants.none c none) E (cc0__ce_kernel i a2 h2 a3 h3 a4 h4 a5 h5 a6 h6 a7 h7) K := by
  simp only [cc0__ce_kernel_eq_skeleton]; unfold cc0__ce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; iexact H5
    ipureintro
    sl_unfold_words
    rw [Cert.Whole.read_writes_cons, Cert.Whole.readAt_whole, Cert.Whole.readAt_whole, hf2, hf5]; rfl
  isplitl [H6]
  · iexists _; isplitr; swap; iexact H6
    ipureintro
    sl_unfold_words
    rw [Cert.Whole.read_writes_cons, Cert.Whole.readAt_whole, Cert.Whole.readAt_whole, Cert.Whole.readAt_whole, hf2, hf5, hf6]; rfl
  iexists _; isplitr; swap; iexact H7
  ipureintro
  sl_unfold_words
  rw [Cert.Whole.read_writes_cons, Cert.Whole.readAt_whole, Cert.Whole.readAt_whole, Cert.Whole.readAt_whole, hf2, hf3, hf7]; rfl

/-- The first column block of a row block (not the last): the statistics, whatever they held, are reset to
    `(-∞, 0, 0)` and then updated. -/
theorem run_first (c : Dev nD) (i : grid0.Coords)
    (a2 : Memref sig .tc .vmem S1024x1024 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (hf : condFirst i) (hl : ¬condLast i)
    (X0 : Vec F S1024x1024 .f32) (X1 : Vec F S1024x1 .i32) (XO M L T : Vec F S1024x1 .f32) (E : Set ℕ) (K : PUnit → sProp 𝕄) :
    iprop(owns (c : Thread nD τ) a2 fullShare X0 ∗ owns (c : Thread nD τ) a3 fullShare X1 ∗ owns (c : Thread nD τ) a4 fullShare XO
          ∗ owns (c : Thread nD τ) a5 fullShare M ∗ owns (c : Thread nD τ) a6 fullShare L ∗ owns (c : Thread nD τ) a7 fullShare T
          ∗ (iprop(owns (c : Thread nD τ) a2 fullShare X0 ∗ owns (c : Thread nD τ) a3 fullShare X1 ∗ owns (c : Thread nD τ) a4 fullShare XO
                ∗ owns (c : Thread nD τ) a5 fullShare (newM i X0 (k0_pay3 (F := F))) ∗ owns (c : Thread nD τ) a6 fullShare (newL i X0 (k0_pay3 (F := F)) (k0_pay4 (F := F)))
                ∗ owns (c : Thread nD τ) a7 fullShare (newT i X0 X1 (k0_pay5 (F := F)))) -∗ K ⟨⟩))
      ⊢ wp frame (wpE (defs₀ (F := F)) Variants.none c none) E (cc0__ce_kernel i a2 h2 a3 h3 a4 h4 a5 h5 a6 h6 a7 h7) K := by
  simp only [cc0__ce_kernel_eq_skeleton]; unfold cc0__ce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; iexact H5
    ipureintro
    sl_unfold_words
    rw [Cert.Whole.read_writes_cons, Cert.Whole.readAt_whole, Cert.Whole.readCov_whole, hf2]; rfl
  isplitl [H6]
  · iexists _; isplitr; swap; iexact H6
    ipureintro
    sl_unfold_words
    rw [Cert.Whole.read_writes_cons, Cert.Whole.readAt_whole, Cert.Whole.readCov_whole, Cert.Whole.readCov_whole, hf2]; rfl
  iexists _; isplitr; swap; iexact H7
  ipureintro
  sl_unfold_words
  rw [Cert.Whole.read_writes_cons, Cert.Whole.readAt_whole, Cert.Whole.readAt_whole, Cert.Whole.readCov_whole, hf2, hf3]; rfl

/-- The last column block of a row block (not the first): the statistics are updated and the result block is stored,
    `M + log L - T` of the updated statistics, whatever it held. -/
theorem run_last (c : Dev nD) (i : grid0.Coords)
    (a2 : Memref sig .tc .vmem S1024x1024 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (hf : ¬condFirst i) (hl : condLast i)
    (X0 : Vec F S1024x1024 .f32) (X1 : Vec F S1024x1 .i32) (XO M L T : Vec F S1024x1 .f32) (E : Set ℕ) (K : PUnit → sProp 𝕄) :
    iprop(owns (c : Thread nD τ) a2 fullShare X0 ∗ owns (c : Thread nD τ) a3 fullShare X1 ∗ owns (c : Thread nD τ) a4 fullShare XO
          ∗ owns (c : Thread nD τ) a5 fullShare M ∗ owns (c : Thread nD τ) a6 fullShare L ∗ owns (c : Thread nD τ) a7 fullShare T
          ∗ (iprop(owns (c : Thread nD τ) a2 fullShare X0 ∗ owns (c : Thread nD τ) a3 fullShare X1
                ∗ owns (c : Thread nD τ) a4 fullShare (k0_pay2 (newM i X0 M) (newL i X0 M L) (newT i X0 X1 T))
                ∗ owns (c : Thread nD τ) a5 fullShare (newM i X0 M) ∗ owns (c : Thread nD τ) a6 fullShare (newL i X0 M L)
                ∗ owns (c : Thread nD τ) a7 fullShare (newT i X0 X1 T)) -∗ K ⟨⟩))
      ⊢ wp frame (wpE (defs₀ (F := F)) Variants.none c none) E (cc0__ce_kernel i a2 h2 a3 h3 a4 h4 a5 h5 a6 h6 a7 h7) K := by
  simp only [cc0__ce_kernel_eq_skeleton]; unfold cc0__ce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; iexact H4
    ipureintro
    sl_unfold_words
    rw [Cert.Whole.read_writes_cons, Cert.Whole.readCov_whole, Cert.Whole.readCov_whole, Cert.Whole.readCov_whole,
      Cert.Whole.readAt_whole, Cert.Whole.readAt_whole, Cert.Whole.readAt_whole, Cert.Whole.readAt_whole, Cert.Whole.readAt_whole,
      hf2, hf3, hf5, hf6, hf7]; rfl
  isplitl [H5]
  · iexists _; isplitr; swap; iexact H5
    ipureintro
    sl_unfold_words
    rw [Cert.Whole.read_writes_cons, Cert.Whole.readAt_whole, Cert.Whole.readAt_whole, hf2, hf5]; rfl
  isplitl [H6]
  · iexists _; isplitr; swap; iexact H6
    ipureintro
    sl_unfold_words
    rw [Cert.Whole.read_writes_cons, Cert.Whole.readAt_whole, Cert.Whole.readAt_whole, Cert.Whole.readAt_whole, hf2, hf5, hf6]; rfl
  iexists _; isplitr; swap; iexact H7
  ipureintro
  sl_unfold_words
  rw [Cert.Whole.read_writes_cons, Cert.Whole.readAt_whole, Cert.Whole.readAt_whole, Cert.Whole.readAt_whole, hf2, hf3, hf7]; rfl

end Cert.Kernel.Hand

end
-- ==== Proof.KIndep.lean ====
/-
  The body's payloads do not depend on what the logits' staging buffer holds outside the part a fetch moves. The
  table has 50257 columns and the blocks 1024, so the last column block overhangs the table; a fetch fills the
  block's part inside the table and leaves the rest of the buffer as it was. The body masks every column whose
  number in the table is not below 50257, and a label is below 50257, so none of the three statistics reads the rest.
-/
import proofs.«416316_j58136677319100_1_alg».proof.Proof.KStats
import Idealize.ShloMosaic.Lib.ValueIdx
import Idealize.ShloMosaic.Lib.Pipeline.Value
import Idealize.ShloMosaic.Lib.Affine

set_option maxRecDepth 16384

noncomputable section

namespace Cert.Kernel.Hand

open Idealize.ShloMosaic Idealize.ShloMosaic.ValueIdx Idealize.SL.Sem
open Cert.Kernel Cert.Kernel.Gen

variable {F : FTy → Type} [FloatOps F]

variable (ci : grid0.Coords) (d d' : S1024x1024.Idx → Elt F .f32) (g : (win0_0.xblock ci).Idx → Elt F .f32)

/-- The column block's number is below 50. -/
theorem col_lt : (ci 1).val < 50 := (ci 1).isLt

/-- The column word of the block's entry `j`: the block's first column plus the entry's column in the block. -/
theorem pay6_apply (j : S1024x1024.Idx) :
    k0_pay6 ci j = BitVec.ofNat 32 (ci 1).val * 1024#32 + BitVec.ofNat 32 (j 1).val := by
  unfold k0_pay6
  show IntOp.addi (broadcast S1024x1024 (Scalar.muli (BitVec.ofNat 32 (ci 1).val) 1024#32) j)
      (iota .tc S1024x1024 32 [1] iota_S1024x1024_d1_w32 j) = _
  rw [iota_single_apply, broadcast_apply]
  rfl

/-- It does not wrap: as a number it is the entry's column in the table. -/
theorem pay6_toNat (j : S1024x1024.Idx) : (k0_pay6 ci j).toNat = (ci 1).val * 1024 + (j 1).val := by
  have hc := col_lt ci
  have hj : (j 1).val < 1024 := (j 1).isLt
  rw [pay6_apply, BitVec.toNat_add, BitVec.toNat_mul, BitVec.toNat_ofNat, BitVec.toNat_ofNat, BitVec.toNat_ofNat]
  omega

/-- What the fetch moves of a block of 1024 on an axis of the table, as a number. -/
theorem extent_of (c k n : ℕ) :
    (Pipeline.Clip.of c k n).extent k = if (c + 1) * k ≤ n then k else n - c * k := by
  unfold Pipeline.Clip.of
  split <;> rfl

theorem xsize_row : win0_0.xsize ci 0 = 1024 := by
  have h4 : (ci 0).val < 4 := (ci 0).isLt
  show (Pipeline.Clip.of (BitVec.ofNat 32 (ci 0).val).toNat 1024 4096).extent 1024 = 1024
  rw [extent_of, BitVec.toNat_ofNat, if_pos (by omega)]

theorem xsize_col : win0_0.xsize ci 1 = if ((ci 1).val + 1) * 1024 ≤ 50257 then 1024 else 50257 - (ci 1).val * 1024 := by
  have hc := col_lt ci
  show (Pipeline.Clip.of (BitVec.ofNat 32 (ci 1).val).toNat 1024 50257).extent 1024 = _
  rw [extent_of, BitVec.toNat_ofNat, Nat.mod_eq_of_lt (by omega)]

/-- The block's entry `j` is moved by the fetch exactly when its column lies in the table. -/
theorem moved_iff_col (j : S1024x1024.Idx) : win0_0.moved ci j = true ↔ (ci 1).val * 1024 + (j 1).val < 50257 := by
  have hj0 : (j 0).val < 1024 := (j 0).isLt
  have hj1 : (j 1).val < 1024 := (j 1).isLt
  rw [Pipeline.Window.moved_iff]
  constructor
  · intro h
    have h1 := h 1
    rw [xsize_col] at h1
    split at h1 <;> omega
  · intro h a
    match a with
    | ⟨0, _⟩ => exact (xsize_row ci).symm ▸ hj0
    | ⟨1, _⟩ =>
      show (j 1).val < win0_0.xsize ci 1
      rw [xsize_col]
      split <;> omega

/-- At an entry the fetch does not move, the column word is not below the table's width: the mask's bit is 0. -/
theorem mask_bit_zero {j : S1024x1024.Idx} (hm : ¬win0_0.moved ci j = true) :
    cmpi .slt (k0_pay6 ci) (broadcast S1024x1024 50257#32) j = 0#1 := by
  apply eq_zero_of_ne_one
  show ¬IntOp.cmpi .slt (k0_pay6 ci j) 50257#32 = 1#1
  rw [IntOp.cmpi_slt, moved_iff_col] at *
  have hc := col_lt ci
  have hj1 : (j 1).val < 1024 := (j 1).isLt
  have e := BitVec.toInt_eq_toNat_cond (k0_pay6 ci j)
  rw [pay6_toNat] at e
  have e' : (50257#32 : BitVec 32).toInt = 50257 := by decide
  rw [e']
  omega

/-- The masked block does not depend on what the staging buffer holds past the table's last column. -/
theorem masked_indep : k0_pay7 ci (win0_0.fill ci d g) = k0_pay7 ci (win0_0.fill ci d' g) := by
  funext j
  unfold k0_pay7
  show Scalar.select (cmpi .slt (k0_pay6 ci) (broadcast S1024x1024 50257#32) j) (win0_0.fill ci d g j) _
     = Scalar.select (cmpi .slt (k0_pay6 ci) (broadcast S1024x1024 50257#32) j) (win0_0.fill ci d' g j) _
  by_cases hm : win0_0.moved ci j = true
  · have e : win0_0.fill ci d g j = win0_0.fill ci d' g j := by
      unfold Pipeline.Window.fill
      rw [dif_pos hm, dif_pos hm]
    rw [e]
  · rw [mask_bit_zero ci hm, select_zero, select_zero]

theorem newM_indep (M : Vec F S1024x1 .f32) : newM ci (win0_0.fill ci d g) M = newM ci (win0_0.fill ci d' g) M := by
  unfold newM k0_pay10 k0_pay8
  rw [masked_indep ci d d' g]

theorem newL_indep (M L : Vec F S1024x1 .f32) : newL ci (win0_0.fill ci d g) M L = newL ci (win0_0.fill ci d' g) M L := by
  unfold newL k0_pay9 k0_pay8
  rw [masked_indep ci d d' g]

/-- At an entry the fetch does not move, the column word is no label, a label being below the table's width: the
    match bit is 0. -/
theorem match_bit_zero (X1 : Vec F S1024x1 .i32) (hX1 : ∀ y, (X1 y).toNat < 50257) {j : S1024x1024.Idx}
    (hm : ¬win0_0.moved ci j = true) : k0_pay11 ci X1 j = 0#1 := by
  apply eq_zero_of_ne_one
  unfold k0_pay11
  show ¬IntOp.cmpi .eq (k0_pay6 ci j)
      (broadcastTo S1024x1024 (shapeCast S1024x1 X1 shapeCasts_S1024x1_S1024x1) broadcasts_S1024x1_S1024x1024 j) = 1#1
  rw [IntOp.cmpi_eq, shapeCast_self]
  obtain ⟨k, hk⟩ : ∃ k, broadcastTo S1024x1024 X1 broadcasts_S1024x1_S1024x1024 j = X1 k := ⟨_, rfl⟩
  rw [hk]
  intro e
  have h := congrArg BitVec.toNat e
  rw [pay6_toNat] at h
  rw [moved_iff_col] at hm
  have := hX1 k
  omega

/-- The picked entries, the block where the column word is the row's label and zero elsewhere, do not depend on it. -/
theorem picked_indep (X1 : Vec F S1024x1 .i32) (hX1 : ∀ y, (X1 y).toNat < 50257) (z : Elt F .f32) :
    select (k0_pay11 ci X1) (win0_0.fill ci d g) (broadcast S1024x1024 z)
      = select (k0_pay11 ci X1) (win0_0.fill ci d' g) (broadcast S1024x1024 z) := by
  funext j
  rw [select_apply, select_apply]
  by_cases hm : win0_0.moved ci j = true
  · have e : win0_0.fill ci d g j = win0_0.fill ci d' g j := by
      unfold Pipeline.Window.fill
      rw [dif_pos hm, dif_pos hm]
    rw [e]
  · rw [match_bit_zero ci X1 hX1 hm, select_zero, select_zero]

/-- With every label inside the table's columns, the picked entry does not depend on it either. -/
theorem newT_indep (X1 : Vec F S1024x1 .i32) (hX1 : ∀ y, (X1 y).toNat < 50257) (T : Vec F S1024x1 .f32) :
    newT ci (win0_0.fill ci d g) X1 T = newT ci (win0_0.fill ci d' g) X1 T := by
  unfold newT k0_pay1
  dsimp only
  rw [picked_indep ci d d' g X1 hX1]

end Cert.Kernel.Hand

end
-- ==== Proof.KBody.lean ====
/-
  The body obligation of the pipeline and its run: at every point the kernel body, started on the staged blocks and
  the three statistics buffers, leaves the statistics of that point (and, at a row block's last column block, the
  result block); hence the frame run, whose post names every array's final contents.
-/
import proofs.«416316_j58136677319100_1_alg».proof.Proof.KData
import proofs.«416316_j58136677319100_1_alg».proof.Proof.KRuns
import proofs.«416316_j58136677319100_1_alg».proof.Proof.KIndep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

/-- The logits buffer is handed back holding the block on the columns inside the table and anything past them. -/
theorem leaves_0 (c : Dev nD) (t : Fin cfg0.N) :
    (dats m 0 c).leaves 0 t
      = iprop(∃ d, owns (c : Thread nD τ) (ms0 t) fullShare (win0_0.fill (grid0.coords t) d (iblk m c 0 t))) := by
  unfold Dat.leaves
  rw [live_0 t]
  show iprop(∃ d, owns (c : Thread nD τ) (ms0 t) fullShare
    (win0_0.fill (grid0.coords t) d (win0_0.cut (grid0.coords t) ((dats m 0 c).after 0 t)))) = _
  rw [after_0]
  unfold xst
  rw [win0_0.cut_fill]

/-- The label buffer is handed back holding its block. -/
theorem leaves_1 (c : Dev nD) (t : Fin cfg0.N) :
    (dats m 0 c).leaves 1 t = owns (c : Thread nD τ) (ms1 t) fullShare (iblk m c 1 t) := by
  unfold Dat.leaves
  rw [live_1 t, after_1]

/-- Off the last column block the result buffer is handed back as found; -/
theorem leaves_2_idle (c : Dev nD) (t : Fin cfg0.N) (hl : ¬condLast (grid0.coords t)) :
    (dats m 0 c).leaves 2 t = iprop(∃ d, owns (c : Thread nD τ) (ms2 t) fullShare ((dats m 0 c).before 2 t d)) :=
  Dat.leaves_idle (dats m 0 c) 2 t (idle_2 t hl) (noFlush_2 t hl)

/-- at the last column block holding the result block. -/
theorem leaves_2_last (c : Dev nD) (t : Fin cfg0.N) (hl : condLast (grid0.coords t)) :
    (dats m 0 c).leaves 2 t = owns (c : Thread nD τ) (ms2 t) fullShare (outAt m c t) := by
  unfold Dat.leaves
  rw [live_2 t hl, after_2]

/-- The staged logits block with anything past the table's last column gives the statistics the zero-filled one gives. -/
theorem step_indep (hT : LabelsOk m) (c : Dev nD) (t : Fin cfg0.N) (d : S1024x1024.Idx → Elt F .f32) (s : Stats F) :
    (newM (grid0.coords t) (win0_0.fill (grid0.coords t) d (iblk m c 0 t)) s.1,
      newL (grid0.coords t) (win0_0.fill (grid0.coords t) d (iblk m c 0 t)) s.1 s.2.1,
      newT (grid0.coords t) (win0_0.fill (grid0.coords t) d (iblk m c 0 t)) (iblk m c 1 t) s.2.2) = statsStep m c t s := by
  unfold statsStep xst lst
  rw [newM_indep (grid0.coords t) d zfill (iblk m c 0 t), newL_indep (grid0.coords t) d zfill (iblk m c 0 t),
    newT_indep (grid0.coords t) d zfill (iblk m c 0 t) (iblk m c 1 t) (lst_ok m hT c t)]

set_option maxHeartbeats 1600000 in
/-- The body at any point: by the place of the point in its row block (first, last, or between) the matching run
    applies; the three statistics buffers arrive holding what the point before left (anything at a row block's first
    point) and leave holding this point's statistics. -/
theorem sound_body (hT : LabelsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ, leaves_0, leaves_1]
  have hN : t.val < 200 := lt_of_lt_of_eq t.isLt N_eq
  by_cases h0 : t.val % 50 = 0
  · have hf : condFirst (grid0.coords t) := (condFirst_iff t).mpr h0
    have hl : ¬condLast (grid0.coords t) := fun h => by have := (condLast_iff t).mp h; omega
    rw [leaves_2_idle m c t hl, statsAt_first m c t h0]
    by_cases hz : t.val = 0
    · rw [PhiS_castSucc m c t, PhiS_zero m c _ _ hz, PhiA_eq]
      iintro ⟨⟨⟨⟨%dM, HM⟩, ⟨%dL, HL⟩, ⟨%dT, HT⟩⟩, Hg⟩, Ho, ⟨%d0, H0⟩, ⟨%d1, H1⟩, ⟨%d2, H2⟩⟩
      rw [← step_indep m hT c t d0 stats0]
      iapply (run_first (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) dM dL dT Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexists _; iexact H2
    · rw [PhiS_castSucc m c t, PhiS_pos m c _ _ hz]
      iintro ⟨⟨⟨HM, HL, HT⟩, Hg⟩, Ho, ⟨%d0, H0⟩, ⟨%d1, H1⟩, ⟨%d2, H2⟩⟩
      rw [← step_indep m hT c t d0 stats0]
      iapply (run_first (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) _ _ _ Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexists _; iexact H2
  · have hf : ¬condFirst (grid0.coords t) := fun h => h0 ((condFirst_iff t).mp h)
    have hz : t.val ≠ 0 := fun h => h0 (by rw [h])
    rw [statsAt_next m c t h0, PhiS_castSucc m c t, PhiS_pos m c _ _ hz]
    by_cases h1 : t.val % 50 = 49
    · have hl : condLast (grid0.coords t) := (condLast_iff t).mpr h1
      rw [leaves_2_last m c t hl]
      unfold outAt
      rw [statsAt_next m c t h0]
      iintro ⟨⟨⟨HM, HL, HT⟩, Hg⟩, Ho, ⟨%d0, H0⟩, ⟨%d1, H1⟩, ⟨%d2, H2⟩⟩
      rw [← step_indep m hT c t d0]
      iapply (run_last (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) _ _ _ Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexact H2
    · have hl : ¬condLast (grid0.coords t) := fun h => h1 ((condLast_iff t).mp h)
      rw [leaves_2_idle m c t hl]
      iintro ⟨⟨⟨HM, HL, HT⟩, Hg⟩, Ho, ⟨%d0, H0⟩, ⟨%d1, H1⟩, ⟨%d2, H2⟩⟩
      rw [← step_indep m hT c t d0]
      iapply (run_mid (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) _ _ _ Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexists _; iexact H2

/-- The library's body obligation, at every point. -/
theorem body_obligation (hT : LabelsOk m) (c : Dev nD) :
    BodyObligationLoose (dats (F := F) m 0 c) (defs₀ (F := F)) Variants.none () Set.univ := fun t => by
  rw [bigSep_W0, bigSep_W0]
  exact sound_body m hT c t

/-! ## The run and the frame -/

set_option backward.isDefEq.respectTransparency.types false in
/-- From any memory with zero counters whose labels are columns of the table: every weakly fair execution of @main
    terminates, and every final state has every array of the pipeline at what the proof data computes and every
    other buffer as the lines after the region leave it. -/
theorem run_main (hT : LabelsOk m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hT c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its two arguments as it found them. -/
theorem frame (hT : LabelsOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hT)

end Cert.Kernel.Hand

end
-- ==== Proof.Conds.lean ====
/-
  The two conditions the kernel body branches on, as propositions over the grid coordinates, and over the grid's
  200 points (4 row blocks by 50 column blocks, the column block the fast coordinate) where each holds: the first
  column block of a row block (the running statistics are reset there) and the last (the result block is stored
  there and written back); where the result window is idle.
-/
import proofs.«416316_j58136677319100_1_alg».proof.Proof.Gen.KernelIdeal.Launch
import proofs.«416316_j58136677319100_1_alg».proof.Proof.Gen.KernelIdeal.Points
import proofs.«416316_j58136677319100_1_alg».proof.Proof.Gen.KernelIdeal.Skeleton

noncomputable section

namespace Cert.KernelIdeal.Hand

open Idealize.ShloMosaic Idealize.ShloMosaic.TcCoe Idealize.SL.Sem
open Cert.KernelIdeal Cert.KernelIdeal.Gen

/-- The body's first branch: the point is the first column block of its row block. -/
abbrev condFirst (i : grid0.Coords) : Prop :=
  (Scalar.cmpi .ne (Scalar.extui (Scalar.cmpi .eq (BitVec.ofNat 32 (i 1).val) 0#32)) 0#32) = 1#1
/-- The body's second branch: the point is the last column block of its row block. -/
abbrev condLast (i : grid0.Coords) : Prop := k0_cond2 i = 1#1

theorem condFirst_iff : ∀ t : Fin cfg0.N, condFirst (grid0.coords t) ↔ t.val % 50 = 0 :=
  (by decide +kernel : ∀ t : Fin grid0.N, condFirst (grid0.coords t) ↔ t.val % 50 = 0)
theorem condLast_iff : ∀ t : Fin cfg0.N, condLast (grid0.coords t) ↔ t.val % 50 = 49 :=
  (by decide +kernel : ∀ t : Fin grid0.N, condLast (grid0.coords t) ↔ t.val % 50 = 49)

/-- The coordinates of point `t`: row block `t / 50`, column block `t % 50`. -/
theorem coords_row : ∀ t : Fin cfg0.N, ((grid0.coords t) 0).val = t.val / 50 :=
  (by decide +kernel : ∀ t : Fin grid0.N, ((grid0.coords t) 0).val = t.val / 50)
theorem coords_col : ∀ t : Fin cfg0.N, ((grid0.coords t) 1).val = t.val % 50 :=
  (by decide +kernel : ∀ t : Fin grid0.N, ((grid0.coords t) 1).val = t.val % 50)

/-- The input windows are never idle; the result window is idle exactly off the last column block, and is
    written back exactly there. -/
theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬condLast (grid0.coords t) → cfg0.idle 2 (grid0.coords t) = true := by decide +kernel
theorem live_2 : ∀ t : Fin cfg0.N, condLast (grid0.coords t) → cfg0.idle 2 (grid0.coords t) = false := by decide +kernel
theorem noFlush_2 : ∀ t : Fin cfg0.N, ¬condLast (grid0.coords t) → (cfg0.win 2).flush t = false := by decide +kernel

theorem N_eq : cfg0.N = 200 := by decide +kernel

end Cert.KernelIdeal.Hand

end
-- ==== Proof.Stats.lean ====
/-
  The three running statistics of the online softmax as functions of one block: names for the body's payloads.
-/
import proofs.«416316_j58136677319100_1_alg».proof.Proof.Conds

set_option maxRecDepth 16384

noncomputable section

namespace Cert.KernelIdeal.Hand

open Idealize.ShloMosaic Idealize.SL.Sem
open Cert.KernelIdeal Cert.KernelIdeal.Gen

variable {F : FTy → Type} [FloatOps F] [Named F]

/-- What one run of the body leaves in the three statistics buffers, from the staged logits block `X0`, the staged
    label block `X1` and the statistics `(M, L, T)` it starts from: the new running maximum, the rescaled running
    sum of exponentials, the running picked entry. -/
def newM (i : grid0.Coords) (X0 : Vec F S1024x1024 .f32) (M : Vec F S1024x1 .f32) : Vec F S1024x1 .f32 := k0_pay10 i X0 M
def newL (i : grid0.Coords) (X0 : Vec F S1024x1024 .f32) (M L : Vec F S1024x1 .f32) : Vec F S1024x1 .f32 := k0_pay9 i X0 M L
def newT (i : grid0.Coords) (X0 : Vec F S1024x1024 .f32) (X1 : Vec F S1024x1 .i32) (T : Vec F S1024x1 .f32) : Vec F S1024x1 .f32 :=
  k0_pay1 X0 (k0_pay11 i X1) T

end Cert.KernelIdeal.Hand

end
-- ==== Proof.Data.lean ====
/-
  What the pipeline's buffers hold point by point: the logits block and the label block each point stages, the three
  running statistics after each point — reset at the first column block of a row block, then updated block by block —,
  the result block stored at the last column block; and the proof data stating them.
-/
import proofs.«416316_j58136677319100_1_alg».proof.Proof.Conds
import proofs.«416316_j58136677319100_1_alg».proof.Proof.Stats
import proofs.«416316_j58136677319100_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs and the statistics buffers -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The running maximum, the running sum and the running picked entry live in three buffers of the kernel's own. -/
abbrev scM : Memref sig .tc .vmem S1024x1 .f32 := Memref.whole cc0_scratch0
abbrev scL : Memref sig .tc .vmem S1024x1 .f32 := Memref.whole cc0_scratch1
abbrev scT : Memref sig .tc .vmem S1024x1 .f32 := Memref.whole cc0_scratch2

/-- Before the first point and after the last the three buffers hold anything. -/
theorem PhiA_eq (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scT fullShare d)) ∗ (∃ r, prngReg c r)) := by
  unfold Pipeline.ΦA; rw [scopedRest0_eq]; simp only [scM, scL, scT, owns_whole]; try rfl

/-! ## The staged blocks -/

/-- Past the table's last column a staged logits block holds words nothing names; where a value must be written
    down, zero stands there. -/
def zfill : S1024x1024.Idx → Elt F .f32 := fun _ => Scalar.ofBits .f32 0#32

/-- The logits block of point `t` as staged. -/
def xst (c : Dev nD) (t : Fin cfg0.N) : Vec F S1024x1024 .f32 :=
  win0_0.fill (grid0.coords t) zfill (iblk m c 0 t)

/-- The label block of point `t`. -/
def lst (c : Dev nD) (t : Fin cfg0.N) : Vec F S1024x1 .i32 := iblk m c 1 t

/-! ## The statistics after each point -/

abbrev Stats (F : FTy → Type) : Type := Vec F S1024x1 .f32 × Vec F S1024x1 .f32 × Vec F S1024x1 .f32

/-- The statistics a row block starts from: `(-∞, 0, 0)`. -/
def stats0 : Stats F := (k0_pay3, k0_pay4, k0_pay5)

/-- One block's update. -/
def statsStep (c : Dev nD) (t : Fin cfg0.N) (s : Stats F) : Stats F :=
  (newM (grid0.coords t) (xst m c t) s.1, newL (grid0.coords t) (xst m c t) s.1 s.2.1,
    newT (grid0.coords t) (xst m c t) (lst m c t) s.2.2)

/-- The statistics after point `n`: at the first column block of a row block from the reset values, else from what
    the point before left. -/
def statsAt (c : Dev nD) : (n : ℕ) → n < cfg0.N → Stats F
  | 0, hn => statsStep m c ⟨0, hn⟩ stats0
  | n + 1, hn =>
    if (n + 1) % 50 = 0 then statsStep m c ⟨n + 1, hn⟩ stats0
    else statsStep m c ⟨n + 1, hn⟩ (statsAt c n (Nat.lt_of_succ_lt hn))

theorem statsAt_first (c : Dev nD) (t : Fin cfg0.N) (h : t.val % 50 = 0) :
    statsAt m c t.val t.isLt = statsStep m c t stats0 := by
  obtain ⟨n, hn⟩ := t
  cases n with
  | zero => rfl
  | succ n => exact (if_pos h)

theorem statsAt_next (c : Dev nD) (t : Fin cfg0.N) (h : ¬t.val % 50 = 0) :
    statsAt m c t.val t.isLt = statsStep m c t (statsAt m c (t.val - 1) (Nat.lt_of_le_of_lt (Nat.sub_le _ _) t.isLt)) := by
  obtain ⟨n, hn⟩ := t
  cases n with
  | zero => exact absurd (Nat.zero_mod _) h
  | succ n => exact (if_neg h)

/-- The result block stored at a last column block: `M + log L - T` of the statistics there. -/
def outAt (c : Dev nD) (t : Fin cfg0.N) : Vec F S1024x1 .f32 :=
  k0_pay2 (statsAt m c t.val t.isLt).1 (statsAt m c t.val t.isLt).2.1 (statsAt m c t.val t.isLt).2.2

/-! ## The invariant and the proof data -/

/-- Before point `n`: nothing known of the three buffers before the first point; afterwards they hold the
    statistics the point before left. -/
def PhiS (c : Dev nD) : (n : ℕ) → n ≤ cfg0.N → sProp 𝕄
  | 0, _ => Pipeline.ΦA spec0 c
  | n + 1, hn => iprop(iprop(owns (c : Thread nD τ) scM fullShare (statsAt m c n hn).1
      ∗ owns (c : Thread nD τ) scL fullShare (statsAt m c n hn).2.1
      ∗ owns (c : Thread nD τ) scT fullShare (statsAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (statsAt m c n hn).1
      ∗ owns (c : Thread nD τ) scL fullShare (statsAt m c n hn).2.1
      ∗ owns (c : Thread nD τ) scT fullShare (statsAt m c n hn).2.2) ∗ (∃ r, prngReg c r)) := rfl

theorem PhiS_pos (c : Dev nD) (n : ℕ) (h : n ≤ cfg0.N) (hz : n ≠ 0) :
    PhiS m c n h = iprop(iprop(owns (c : Thread nD τ) scM fullShare (statsAt m c (n - 1) (by omega)).1
      ∗ owns (c : Thread nD τ) scL fullShare (statsAt m c (n - 1) (by omega)).2.1
      ∗ owns (c : Thread nD τ) scT fullShare (statsAt m c (n - 1) (by omega)).2.2) ∗ (∃ r, prngReg c r)) := by
  cases n with
  | zero => exact absurd rfl hz
  | succ n => rfl

/-- The proof data of the one pipeline on core `c`: the arrays as the region finds them; after the body each input's
    buffer at its block, the result's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xst m c t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xst m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- What the body finds: the logits buffer just fetched — the block on the columns inside the table, `d` past them —, -/
theorem before_0 (c : Dev nD) (t : Fin cfg0.N) (d) :
    (dats m 0 c).before 0 t d = win0_0.fill (grid0.coords t) d (iblk m c 0 t) := by
  unfold Dat.before; rw [if_pos (fetch0_0 t)]; rfl

/-- the label buffer at its block, fetched there or not. -/
theorem before_1 (c : Dev nD) (t : Fin cfg0.N) (d) : (dats m 0 c).before 1 t d = iblk m c 1 t :=
  before0_1_of m (dats m 0 c) (A_eq m c 1) (after_1 m c) t d

/-- What the logits buffer is handed back holding is, on the columns inside the table, the block. -/
theorem cut_after_0 (c : Dev nD) (t : Fin cfg0.N) :
    (cfg0.win 0).cut (grid0.coords t) ((dats m 0 c).after 0 t) = iblk m c 0 t := by
  rw [after_0]; exact win0_0.cut_fill _ _ _

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HT⟩, Hg⟩
  isplitl [HM HL HT]
  · isplitl [HM]
    · iexists _; iexact HM
    isplitl [HL]
    · iexists _; iexact HL
    · iexists _; iexact HT
  iexact Hg

theorem hout (c : Dev nD) : (dats m 0 c).Φ (Fin.last cfg0.N) ⊢ Pipeline.ΦA spec0 c :=
  Phi_out m c _ (by rw [Fin.val_last]; have : cfg0.N = 200 := N_eq; omega)

/-! ## The labels inside the table's columns -/

/-- Every label word, read unsigned, is a column of the table. -/
def LabelsOk : Prop := ∀ (c : Dev nD) (r : S4096.Idx), (m ((c : Thread nD τ).loc main_arg1) r).toNat < 50257

/-- The label column the region finds is the label vector under another shape. -/
theorem V_labels (c : Dev nD) :
    (V m c main_v0 : S4096x1.Idx → BitVec 32) = shapeCast S4096x1 (m ((c : Thread nD τ).loc main_arg1)) shapeCasts_S4096_S4096x1 := by
  dsimp only [V, V0]
  simp only [hostOps0, List.flatten_cons, List.flatten_nil, List.append_nil, List.cons_append, List.nil_append]
  after_results
  rfl

/-- So every word of a staged label block is a column of the table. -/
theorem lst_ok (hT : LabelsOk m) (c : Dev nD) (t : Fin cfg0.N) (y : S1024x1.Idx) : (lst m c t y).toNat < 50257 := by
  show ((V m c main_v0 : S4096x1.Idx → BitVec 32) _).toNat < 50257
  rw [V_labels]
  exact hT c _

end Cert.KernelIdeal.Hand

end
-- ==== Proof.Runs.lean ====
/-
  The kernel body's three triples: on whole buffers holding the staged logits block, the staged label block, the
  result block and the three running statistics, one run of the body ends with the inputs as they were and the
  statistics updated; at the first column block the statistics are reset before the update, at the last the result
  block is stored from the updated statistics. Every access of the body is a load or a store of a whole buffer, so
  a buffer read back after the body's stores holds the payload of the last store into it, and a load after a store
  reads that store's payload.
-/
import proofs.«416316_j58136677319100_1_alg».proof.Proof.Conds
import proofs.«416316_j58136677319100_1_alg».proof.Proof.LibWhole
import proofs.«416316_j58136677319100_1_alg».proof.Proof.Stats
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A column block that is neither the first nor the last of its row block: the statistics are updated, the result
    block is left as it was found. -/
theorem run_mid (c : Dev nD) (i : grid0.Coords)
    (a2 : Memref sig .tc .vmem S1024x1024 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (hf : ¬condFirst i) (hl : ¬condLast i)
    (X0 : Vec F S1024x1024 .f32) (X1 : Vec F S1024x1 .i32) (XO M L T : Vec F S1024x1 .f32) (E : Set ℕ) (K : PUnit → sProp 𝕄) :
    iprop(owns (c : Thread nD τ) a2 fullShare X0 ∗ owns (c : Thread nD τ) a3 fullShare X1 ∗ owns (c : Thread nD τ) a4 fullShare XO
          ∗ owns (c : Thread nD τ) a5 fullShare M ∗ owns (c : Thread nD τ) a6 fullShare L ∗ owns (c : Thread nD τ) a7 fullShare T
          ∗ (iprop(owns (c : Thread nD τ) a2 fullShare X0 ∗ owns (c : Thread nD τ) a3 fullShare X1 ∗ owns (c : Thread nD τ) a4 fullShare XO
                ∗ owns (c : Thread nD τ) a5 fullShare (newM i X0 M) ∗ owns (c : Thread nD τ) a6 fullShare (newL i X0 M L)
                ∗ owns (c : Thread nD τ) a7 fullShare (newT i X0 X1 T)) -∗ K ⟨⟩))
      ⊢ wp frame (wpE (defs₀ (F := F)) Variants.none c none) E (cc0__ce_kernel i a2 h2 a3 h3 a4 h4 a5 h5 a6 h6 a7 h7) K := by
  simp only [cc0__ce_kernel_eq_skeleton]; unfold cc0__ce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; iexact H5
    ipureintro
    sl_unfold_words
    rw [Cert.Whole.read_writes_cons, Cert.Whole.readAt_whole, Cert.Whole.readAt_whole, hf2, hf5]; rfl
  isplitl [H6]
  · iexists _; isplitr; swap; iexact H6
    ipureintro
    sl_unfold_words
    rw [Cert.Whole.read_writes_cons, Cert.Whole.readAt_whole, Cert.Whole.readAt_whole, Cert.Whole.readAt_whole, hf2, hf5, hf6]; rfl
  iexists _; isplitr; swap; iexact H7
  ipureintro
  sl_unfold_words
  rw [Cert.Whole.read_writes_cons, Cert.Whole.readAt_whole, Cert.Whole.readAt_whole, Cert.Whole.readAt_whole, hf2, hf3, hf7]; rfl

/-- The first column block of a row block (not the last): the statistics, whatever they held, are reset to
    `(-∞, 0, 0)` and then updated. -/
theorem run_first (c : Dev nD) (i : grid0.Coords)
    (a2 : Memref sig .tc .vmem S1024x1024 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (hf : condFirst i) (hl : ¬condLast i)
    (X0 : Vec F S1024x1024 .f32) (X1 : Vec F S1024x1 .i32) (XO M L T : Vec F S1024x1 .f32) (E : Set ℕ) (K : PUnit → sProp 𝕄) :
    iprop(owns (c : Thread nD τ) a2 fullShare X0 ∗ owns (c : Thread nD τ) a3 fullShare X1 ∗ owns (c : Thread nD τ) a4 fullShare XO
          ∗ owns (c : Thread nD τ) a5 fullShare M ∗ owns (c : Thread nD τ) a6 fullShare L ∗ owns (c : Thread nD τ) a7 fullShare T
          ∗ (iprop(owns (c : Thread nD τ) a2 fullShare X0 ∗ owns (c : Thread nD τ) a3 fullShare X1 ∗ owns (c : Thread nD τ) a4 fullShare XO
                ∗ owns (c : Thread nD τ) a5 fullShare (newM i X0 (k0_pay3 (F := F))) ∗ owns (c : Thread nD τ) a6 fullShare (newL i X0 (k0_pay3 (F := F)) (k0_pay4 (F := F)))
                ∗ owns (c : Thread nD τ) a7 fullShare (newT i X0 X1 (k0_pay5 (F := F)))) -∗ K ⟨⟩))
      ⊢ wp frame (wpE (defs₀ (F := F)) Variants.none c none) E (cc0__ce_kernel i a2 h2 a3 h3 a4 h4 a5 h5 a6 h6 a7 h7) K := by
  simp only [cc0__ce_kernel_eq_skeleton]; unfold cc0__ce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; iexact H5
    ipureintro
    sl_unfold_words
    rw [Cert.Whole.read_writes_cons, Cert.Whole.readAt_whole, Cert.Whole.readCov_whole, hf2]; rfl
  isplitl [H6]
  · iexists _; isplitr; swap; iexact H6
    ipureintro
    sl_unfold_words
    rw [Cert.Whole.read_writes_cons, Cert.Whole.readAt_whole, Cert.Whole.readCov_whole, Cert.Whole.readCov_whole, hf2]; rfl
  iexists _; isplitr; swap; iexact H7
  ipureintro
  sl_unfold_words
  rw [Cert.Whole.read_writes_cons, Cert.Whole.readAt_whole, Cert.Whole.readAt_whole, Cert.Whole.readCov_whole, hf2, hf3]; rfl

/-- The last column block of a row block (not the first): the statistics are updated and the result block is stored,
    `M + log L - T` of the updated statistics, whatever it held. -/
theorem run_last (c : Dev nD) (i : grid0.Coords)
    (a2 : Memref sig .tc .vmem S1024x1024 .f32) (h2 : a2.IsWhole) (a3 : Memref sig .tc .vmem S1024x1 .i32) (h3 : a3.IsWhole)
    (a4 : Memref sig .tc .vmem S1024x1 .f32) (h4 : a4.IsWhole) (a5 : Memref sig .tc .vmem S1024x1 .f32) (h5 : a5.IsWhole)
    (a6 : Memref sig .tc .vmem S1024x1 .f32) (h6 : a6.IsWhole) (a7 : Memref sig .tc .vmem S1024x1 .f32) (h7 : a7.IsWhole)
    (hf : ¬condFirst i) (hl : condLast i)
    (X0 : Vec F S1024x1024 .f32) (X1 : Vec F S1024x1 .i32) (XO M L T : Vec F S1024x1 .f32) (E : Set ℕ) (K : PUnit → sProp 𝕄) :
    iprop(owns (c : Thread nD τ) a2 fullShare X0 ∗ owns (c : Thread nD τ) a3 fullShare X1 ∗ owns (c : Thread nD τ) a4 fullShare XO
          ∗ owns (c : Thread nD τ) a5 fullShare M ∗ owns (c : Thread nD τ) a6 fullShare L ∗ owns (c : Thread nD τ) a7 fullShare T
          ∗ (iprop(owns (c : Thread nD τ) a2 fullShare X0 ∗ owns (c : Thread nD τ) a3 fullShare X1
                ∗ owns (c : Thread nD τ) a4 fullShare (k0_pay2 (newM i X0 M) (newL i X0 M L) (newT i X0 X1 T))
                ∗ owns (c : Thread nD τ) a5 fullShare (newM i X0 M) ∗ owns (c : Thread nD τ) a6 fullShare (newL i X0 M L)
                ∗ owns (c : Thread nD τ) a7 fullShare (newT i X0 X1 T)) -∗ K ⟨⟩))
      ⊢ wp frame (wpE (defs₀ (F := F)) Variants.none c none) E (cc0__ce_kernel i a2 h2 a3 h3 a4 h4 a5 h5 a6 h6 a7 h7) K := by
  simp only [cc0__ce_kernel_eq_skeleton]; unfold cc0__ce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; iexact H4
    ipureintro
    sl_unfold_words
    rw [Cert.Whole.read_writes_cons, Cert.Whole.readCov_whole, Cert.Whole.readCov_whole, Cert.Whole.readCov_whole,
      Cert.Whole.readAt_whole, Cert.Whole.readAt_whole, Cert.Whole.readAt_whole, Cert.Whole.readAt_whole, Cert.Whole.readAt_whole,
      hf2, hf3, hf5, hf6, hf7]; rfl
  isplitl [H5]
  · iexists _; isplitr; swap; iexact H5
    ipureintro
    sl_unfold_words
    rw [Cert.Whole.read_writes_cons, Cert.Whole.readAt_whole, Cert.Whole.readAt_whole, hf2, hf5]; rfl
  isplitl [H6]
  · iexists _; isplitr; swap; iexact H6
    ipureintro
    sl_unfold_words
    rw [Cert.Whole.read_writes_cons, Cert.Whole.readAt_whole, Cert.Whole.readAt_whole, Cert.Whole.readAt_whole, hf2, hf5, hf6]; rfl
  iexists _; isplitr; swap; iexact H7
  ipureintro
  sl_unfold_words
  rw [Cert.Whole.read_writes_cons, Cert.Whole.readAt_whole, Cert.Whole.readAt_whole, Cert.Whole.readAt_whole, hf2, hf3, hf7]; rfl

end Cert.KernelIdeal.Hand

end
-- ==== Proof.Indep.lean ====
/-
  The body's payloads do not depend on what the logits' staging buffer holds outside the part a fetch moves. The
  table has 50257 columns and the blocks 1024, so the last column block overhangs the table; a fetch fills the
  block's part inside the table and leaves the rest of the buffer as it was. The body masks every column whose
  number in the table is not below 50257, and a label is below 50257, so none of the three statistics reads the rest.
-/
import proofs.«416316_j58136677319100_1_alg».proof.Proof.Stats
import Idealize.ShloMosaic.Lib.ValueIdx
import Idealize.ShloMosaic.Lib.Pipeline.Value
import Idealize.ShloMosaic.Lib.Affine

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F] [Named F]

variable (ci : grid0.Coords) (d d' : S1024x1024.Idx → Elt F .f32) (g : (win0_0.xblock ci).Idx → Elt F .f32)

/-- The column block's number is below 50. -/
theorem col_lt : (ci 1).val < 50 := (ci 1).isLt

/-- The column word of the block's entry `j`: the block's first column plus the entry's column in the block. -/
theorem pay6_apply (j : S1024x1024.Idx) :
    k0_pay6 ci j = BitVec.ofNat 32 (ci 1).val * 1024#32 + BitVec.ofNat 32 (j 1).val := by
  unfold k0_pay6
  show IntOp.addi (broadcast S1024x1024 (Scalar.muli (BitVec.ofNat 32 (ci 1).val) 1024#32) j)
      (iota .tc S1024x1024 32 [1] iota_S1024x1024_d1_w32 j) = _
  rw [iota_single_apply, broadcast_apply]
  rfl

/-- It does not wrap: as a number it is the entry's column in the table. -/
theorem pay6_toNat (j : S1024x1024.Idx) : (k0_pay6 ci j).toNat = (ci 1).val * 1024 + (j 1).val := by
  have hc := col_lt ci
  have hj : (j 1).val < 1024 := (j 1).isLt
  rw [pay6_apply, BitVec.toNat_add, BitVec.toNat_mul, BitVec.toNat_ofNat, BitVec.toNat_ofNat, BitVec.toNat_ofNat]
  omega

/-- What the fetch moves of a block of 1024 on an axis of the table, as a number. -/
theorem extent_of (c k n : ℕ) :
    (Pipeline.Clip.of c k n).extent k = if (c + 1) * k ≤ n then k else n - c * k := by
  unfold Pipeline.Clip.of
  split <;> rfl

theorem xsize_row : win0_0.xsize ci 0 = 1024 := by
  have h4 : (ci 0).val < 4 := (ci 0).isLt
  show (Pipeline.Clip.of (BitVec.ofNat 32 (ci 0).val).toNat 1024 4096).extent 1024 = 1024
  rw [extent_of, BitVec.toNat_ofNat, if_pos (by omega)]

theorem xsize_col : win0_0.xsize ci 1 = if ((ci 1).val + 1) * 1024 ≤ 50257 then 1024 else 50257 - (ci 1).val * 1024 := by
  have hc := col_lt ci
  show (Pipeline.Clip.of (BitVec.ofNat 32 (ci 1).val).toNat 1024 50257).extent 1024 = _
  rw [extent_of, BitVec.toNat_ofNat, Nat.mod_eq_of_lt (by omega)]

/-- The block's entry `j` is moved by the fetch exactly when its column lies in the table. -/
theorem moved_iff_col (j : S1024x1024.Idx) : win0_0.moved ci j = true ↔ (ci 1).val * 1024 + (j 1).val < 50257 := by
  have hj0 : (j 0).val < 1024 := (j 0).isLt
  have hj1 : (j 1).val < 1024 := (j 1).isLt
  rw [Pipeline.Window.moved_iff]
  constructor
  · intro h
    have h1 := h 1
    rw [xsize_col] at h1
    split at h1 <;> omega
  · intro h a
    match a with
    | ⟨0, _⟩ => exact (xsize_row ci).symm ▸ hj0
    | ⟨1, _⟩ =>
      show (j 1).val < win0_0.xsize ci 1
      rw [xsize_col]
      split <;> omega

/-- At an entry the fetch does not move, the column word is not below the table's width: the mask's bit is 0. -/
theorem mask_bit_zero {j : S1024x1024.Idx} (hm : ¬win0_0.moved ci j = true) :
    cmpi .slt (k0_pay6 ci) (broadcast S1024x1024 50257#32) j = 0#1 := by
  apply eq_zero_of_ne_one
  show ¬IntOp.cmpi .slt (k0_pay6 ci j) 50257#32 = 1#1
  rw [IntOp.cmpi_slt, moved_iff_col] at *
  have hc := col_lt ci
  have hj1 : (j 1).val < 1024 := (j 1).isLt
  have e := BitVec.toInt_eq_toNat_cond (k0_pay6 ci j)
  rw [pay6_toNat] at e
  have e' : (50257#32 : BitVec 32).toInt = 50257 := by decide
  rw [e']
  omega

/-- The masked block does not depend on what the staging buffer holds past the table's last column. -/
theorem masked_indep : k0_pay7 ci (win0_0.fill ci d g) = k0_pay7 ci (win0_0.fill ci d' g) := by
  funext j
  unfold k0_pay7
  show Scalar.select (cmpi .slt (k0_pay6 ci) (broadcast S1024x1024 50257#32) j) (win0_0.fill ci d g j) _
     = Scalar.select (cmpi .slt (k0_pay6 ci) (broadcast S1024x1024 50257#32) j) (win0_0.fill ci d' g j) _
  by_cases hm : win0_0.moved ci j = true
  · have e : win0_0.fill ci d g j = win0_0.fill ci d' g j := by
      unfold Pipeline.Window.fill
      rw [dif_pos hm, dif_pos hm]
    rw [e]
  · rw [mask_bit_zero ci hm, select_zero, select_zero]

theorem newM_indep (M : Vec F S1024x1 .f32) : newM ci (win0_0.fill ci d g) M = newM ci (win0_0.fill ci d' g) M := by
  unfold newM k0_pay10 k0_pay8
  rw [masked_indep ci d d' g]

theorem newL_indep (M L : Vec F S1024x1 .f32) : newL ci (win0_0.fill ci d g) M L = newL ci (win0_0.fill ci d' g) M L := by
  unfold newL k0_pay9 k0_pay8
  rw [masked_indep ci d d' g]

/-- At an entry the fetch does not move, the column word is no label, a label being below the table's width: the
    match bit is 0. -/
theorem match_bit_zero (X1 : Vec F S1024x1 .i32) (hX1 : ∀ y, (X1 y).toNat < 50257) {j : S1024x1024.Idx}
    (hm : ¬win0_0.moved ci j = true) : k0_pay11 ci X1 j = 0#1 := by
  apply eq_zero_of_ne_one
  unfold k0_pay11
  show ¬IntOp.cmpi .eq (k0_pay6 ci j)
      (broadcastTo S1024x1024 (shapeCast S1024x1 X1 shapeCasts_S1024x1_S1024x1) broadcasts_S1024x1_S1024x1024 j) = 1#1
  rw [IntOp.cmpi_eq, shapeCast_self]
  obtain ⟨k, hk⟩ : ∃ k, broadcastTo S1024x1024 X1 broadcasts_S1024x1_S1024x1024 j = X1 k := ⟨_, rfl⟩
  rw [hk]
  intro e
  have h := congrArg BitVec.toNat e
  rw [pay6_toNat] at h
  rw [moved_iff_col] at hm
  have := hX1 k
  omega

/-- The picked entries, the block where the column word is the row's label and zero elsewhere, do not depend on it. -/
theorem picked_indep (X1 : Vec F S1024x1 .i32) (hX1 : ∀ y, (X1 y).toNat < 50257) (z : Elt F .f32) :
    select (k0_pay11 ci X1) (win0_0.fill ci d g) (broadcast S1024x1024 z)
      = select (k0_pay11 ci X1) (win0_0.fill ci d' g) (broadcast S1024x1024 z) := by
  funext j
  rw [select_apply, select_apply]
  by_cases hm : win0_0.moved ci j = true
  · have e : win0_0.fill ci d g j = win0_0.fill ci d' g j := by
      unfold Pipeline.Window.fill
      rw [dif_pos hm, dif_pos hm]
    rw [e]
  · rw [match_bit_zero ci X1 hX1 hm, select_zero, select_zero]

/-- With every label inside the table's columns, the picked entry does not depend on it either. -/
theorem newT_indep (X1 : Vec F S1024x1 .i32) (hX1 : ∀ y, (X1 y).toNat < 50257) (T : Vec F S1024x1 .f32) :
    newT ci (win0_0.fill ci d g) X1 T = newT ci (win0_0.fill ci d' g) X1 T := by
  unfold newT k0_pay1
  dsimp only
  rw [picked_indep ci d d' g X1 hX1]

end Cert.KernelIdeal.Hand

end
-- ==== Proof.Body.lean ====
/-
  The body obligation of the pipeline and its run: at every point the kernel body, started on the staged blocks and
  the three statistics buffers, leaves the statistics of that point (and, at a row block's last column block, the
  result block); hence the frame run, whose post names every array's final contents.
-/
import proofs.«416316_j58136677319100_1_alg».proof.Proof.Data
import proofs.«416316_j58136677319100_1_alg».proof.Proof.Runs
import proofs.«416316_j58136677319100_1_alg».proof.Proof.Indep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

/-- The logits buffer is handed back holding the block on the columns inside the table and anything past them. -/
theorem leaves_0 (c : Dev nD) (t : Fin cfg0.N) :
    (dats m 0 c).leaves 0 t
      = iprop(∃ d, owns (c : Thread nD τ) (ms0 t) fullShare (win0_0.fill (grid0.coords t) d (iblk m c 0 t))) := by
  unfold Dat.leaves
  rw [live_0 t]
  show iprop(∃ d, owns (c : Thread nD τ) (ms0 t) fullShare
    (win0_0.fill (grid0.coords t) d (win0_0.cut (grid0.coords t) ((dats m 0 c).after 0 t)))) = _
  rw [after_0]
  unfold xst
  rw [win0_0.cut_fill]

/-- The label buffer is handed back holding its block. -/
theorem leaves_1 (c : Dev nD) (t : Fin cfg0.N) :
    (dats m 0 c).leaves 1 t = owns (c : Thread nD τ) (ms1 t) fullShare (iblk m c 1 t) := by
  unfold Dat.leaves
  rw [live_1 t, after_1]

/-- Off the last column block the result buffer is handed back as found; -/
theorem leaves_2_idle (c : Dev nD) (t : Fin cfg0.N) (hl : ¬condLast (grid0.coords t)) :
    (dats m 0 c).leaves 2 t = iprop(∃ d, owns (c : Thread nD τ) (ms2 t) fullShare ((dats m 0 c).before 2 t d)) :=
  Dat.leaves_idle (dats m 0 c) 2 t (idle_2 t hl) (noFlush_2 t hl)

/-- at the last column block holding the result block. -/
theorem leaves_2_last (c : Dev nD) (t : Fin cfg0.N) (hl : condLast (grid0.coords t)) :
    (dats m 0 c).leaves 2 t = owns (c : Thread nD τ) (ms2 t) fullShare (outAt m c t) := by
  unfold Dat.leaves
  rw [live_2 t hl, after_2]

/-- The staged logits block with anything past the table's last column gives the statistics the zero-filled one gives. -/
theorem step_indep (hT : LabelsOk m) (c : Dev nD) (t : Fin cfg0.N) (d : S1024x1024.Idx → Elt F .f32) (s : Stats F) :
    (newM (grid0.coords t) (win0_0.fill (grid0.coords t) d (iblk m c 0 t)) s.1,
      newL (grid0.coords t) (win0_0.fill (grid0.coords t) d (iblk m c 0 t)) s.1 s.2.1,
      newT (grid0.coords t) (win0_0.fill (grid0.coords t) d (iblk m c 0 t)) (iblk m c 1 t) s.2.2) = statsStep m c t s := by
  unfold statsStep xst lst
  rw [newM_indep (grid0.coords t) d zfill (iblk m c 0 t), newL_indep (grid0.coords t) d zfill (iblk m c 0 t),
    newT_indep (grid0.coords t) d zfill (iblk m c 0 t) (iblk m c 1 t) (lst_ok m hT c t)]

set_option maxHeartbeats 1600000 in
/-- The body at any point: by the place of the point in its row block (first, last, or between) the matching run
    applies; the three statistics buffers arrive holding what the point before left (anything at a row block's first
    point) and leave holding this point's statistics. -/
theorem sound_body (hT : LabelsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ, leaves_0, leaves_1]
  have hN : t.val < 200 := lt_of_lt_of_eq t.isLt N_eq
  by_cases h0 : t.val % 50 = 0
  · have hf : condFirst (grid0.coords t) := (condFirst_iff t).mpr h0
    have hl : ¬condLast (grid0.coords t) := fun h => by have := (condLast_iff t).mp h; omega
    rw [leaves_2_idle m c t hl, statsAt_first m c t h0]
    by_cases hz : t.val = 0
    · rw [PhiS_castSucc m c t, PhiS_zero m c _ _ hz, PhiA_eq]
      iintro ⟨⟨⟨⟨%dM, HM⟩, ⟨%dL, HL⟩, ⟨%dT, HT⟩⟩, Hg⟩, Ho, ⟨%d0, H0⟩, ⟨%d1, H1⟩, ⟨%d2, H2⟩⟩
      rw [← step_indep m hT c t d0 stats0]
      iapply (run_first (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) dM dL dT Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexists _; iexact H2
    · rw [PhiS_castSucc m c t, PhiS_pos m c _ _ hz]
      iintro ⟨⟨⟨HM, HL, HT⟩, Hg⟩, Ho, ⟨%d0, H0⟩, ⟨%d1, H1⟩, ⟨%d2, H2⟩⟩
      rw [← step_indep m hT c t d0 stats0]
      iapply (run_first (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) _ _ _ Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexists _; iexact H2
  · have hf : ¬condFirst (grid0.coords t) := fun h => h0 ((condFirst_iff t).mp h)
    have hz : t.val ≠ 0 := fun h => h0 (by rw [h])
    rw [statsAt_next m c t h0, PhiS_castSucc m c t, PhiS_pos m c _ _ hz]
    by_cases h1 : t.val % 50 = 49
    · have hl : condLast (grid0.coords t) := (condLast_iff t).mpr h1
      rw [leaves_2_last m c t hl]
      unfold outAt
      rw [statsAt_next m c t h0]
      iintro ⟨⟨⟨HM, HL, HT⟩, Hg⟩, Ho, ⟨%d0, H0⟩, ⟨%d1, H1⟩, ⟨%d2, H2⟩⟩
      rw [← step_indep m hT c t d0]
      iapply (run_last (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) _ _ _ Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexact H2
    · have hl : ¬condLast (grid0.coords t) := fun h => h1 ((condLast_iff t).mp h)
      rw [leaves_2_idle m c t hl]
      iintro ⟨⟨⟨HM, HL, HT⟩, Hg⟩, Ho, ⟨%d0, H0⟩, ⟨%d1, H1⟩, ⟨%d2, H2⟩⟩
      rw [← step_indep m hT c t d0]
      iapply (run_mid (F := F) c (grid0.coords t) (ms0 t) (hs0 t) (ms1 t) (hs1 t) (ms2 t) (hs2 t) scM (Memref.isWhole_whole _)
        scL (Memref.isWhole_whole _) scT (Memref.isWhole_whole _) hf hl
        (win0_0.fill (grid0.coords t) d0 (iblk m c 0 t)) (iblk m c 1 t) ((dats m 0 c).before 2 t d2) _ _ _ Set.univ _)
      isplitl [H0]; · iexact H0
      isplitl [H1]; · iexact H1
      isplitl [H2]; · iexact H2
      isplitl [HM]; · iexact HM
      isplitl [HL]; · iexact HL
      isplitl [HT]; · iexact HT
      iintro ⟨H0, H1, H2, HM, HL, HT⟩
      isplitl [HM HL HT Hg]
      · isplitl [HM HL HT]
        · isplitl [HM]; · iexact HM
          isplitl [HL]; · iexact HL
          iexact HT
        iexact Hg
      isplitl [Ho]; · iexact Ho
      isplitl [H0]; · iexists _; iexact H0
      isplitl [H1]; · iexact H1
      iexists _; iexact H2

/-- The library's body obligation, at every point. -/
theorem body_obligation (hT : LabelsOk m) (c : Dev nD) :
    BodyObligationLoose (dats (F := F) m 0 c) (defs₀ (F := F)) Variants.none () Set.univ := fun t => by
  rw [bigSep_W0, bigSep_W0]
  exact sound_body m hT c t

/-! ## The run and the frame -/

set_option backward.isDefEq.respectTransparency.types false in
/-- From any memory with zero counters whose labels are columns of the table: every weakly fair execution of @main
    terminates, and every final state has every array of the pipeline at what the proof data computes and every
    other buffer as the lines after the region leave it. -/
theorem run_main (hT : LabelsOk m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hT c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its two arguments as it found them. -/
theorem frame (hT : LabelsOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hT)

end Cert.KernelIdeal.Hand

end
-- ==== Proof.Spec.lean ====
/-
  The value both programs compute, row by row, on the extended reals: for a table `x` of 4096 rows and 50257 columns
  and a label per row, the negative log-likelihood of the row's label under the row's softmax,

      nll r = M r + log (∑ c, exp (x r c - M r)) - x r (label r),        M r = the row's largest entry.

  It is stated over a growing prefix of the columns — the largest entry, the shifted exponential sum and the
  label's entry among the first `n` columns — because one side accumulates it over blocks of consecutive columns;
  the whole row is the prefix of all 50257 columns.
-/
import Idealize.ShloMosaic.PureOps.Ideal
import Idealize.ShloMosaic.Lib.ValueIdx

noncomputable section

namespace Cert.CrossEntropy

open Idealize.ShloMosaic Idealize.ShloMosaic.ValueIdx

/-- The logits' shape and the labels' (and the result's). -/
abbrev SX : Shape := ⟨2, ![4096, 50257]⟩
abbrev SR : Shape := ⟨1, ![4096]⟩

/-- An extended real that is a real number. -/
def IsReal (x : EReal) : Prop := ∃ a : ℝ, x = (a : EReal)

/-- The columns before column `n`. -/
def colsBelow (n : ℕ) : Finset (Fin 50257) := Finset.univ.filter fun c => c.val < n

/-- Row `r`'s label as a column number (a label word read unsigned; a word past the last column wraps, which the
    labels' range excludes). -/
def label (t : SR.Idx → BitVec 32) (r : Fin 4096) : Fin 50257 := ⟨(t (ix1 r)).toNat % 50257, Nat.mod_lt _ (by norm_num)⟩

/-- The largest entry of row `r` among its first `n` columns (`⊥` when `n = 0`). -/
def prefMax (x : SX.Idx → EReal) (r : Fin 4096) (n : ℕ) : EReal := (colsBelow n).sup fun c => x (ix2 r c)

/-- The sum over the first `n` columns of row `r` of `exp (entry - prefMax)`. -/
def prefSum (x : SX.Idx → EReal) (r : Fin 4096) (n : ℕ) : EReal :=
  ∑ c ∈ colsBelow n, Ideal.exp (x (ix2 r c) - prefMax x r n)

/-- The label's entry of row `r` if the label is among the first `n` columns, else zero: as a sum that picks it. -/
def prefPick (x : SX.Idx → EReal) (t : SR.Idx → BitVec 32) (r : Fin 4096) (n : ℕ) : EReal :=
  ∑ c ∈ colsBelow n, if c = label t r then x (ix2 r c) else 0

/-- The negative log-likelihood of each row's label. -/
def nll (x : SX.Idx → EReal) (t : SR.Idx → BitVec 32) : SR.Idx → EReal := fun j =>
  prefMax x (j 0) 50257 + Ideal.log (prefSum x (j 0) 50257) - prefPick x t (j 0) 50257

/-- The largest entry of the whole row. -/
def rowMax (x : SX.Idx → EReal) (r : Fin 4096) : EReal := Finset.univ.sup fun c : Fin 50257 => x (ix2 r c)

/-- The same value in the order a log-softmax followed by a pick and a negation computes it:
    `-((x r (label r) - M r) - log (∑ c, exp (x r c - M r)))`. -/
def nllRef (x : SX.Idx → EReal) (t : SR.Idx → BitVec 32) : SR.Idx → EReal := fun j =>
  -((x (ix2 (j 0) (label t (j 0))) - rowMax x (j 0))
      - Ideal.log (∑ c : Fin 50257, Ideal.exp (x (ix2 (j 0) c) - rowMax x (j 0))))

end Cert.CrossEntropy

end
-- ==== Proof.BlockDefs.lean ====
/-
  Which entries of the logits table and which labels a point's staged blocks hold, and the columns a column block
  spans.
-/
import proofs.«416316_j58136677319100_1_alg».proof.Proof.Stats
import proofs.«416316_j58136677319100_1_alg».proof.Proof.Spec
import Idealize.ShloMosaic.Lib.ValueIdx

noncomputable section

namespace Cert.KernelIdeal.Hand

open Idealize.ShloMosaic Idealize.ShloMosaic.ValueIdx Idealize.SL.Sem
open Cert.KernelIdeal Cert.KernelIdeal.Gen Cert.CrossEntropy

/-- The logits block staged at row block `bi`, column block `bj`: on the columns inside the table it holds the
    table's entries (past the table's last column it holds anything). -/
def Staged (x : SX.Idx → EReal) (bi bj : ℕ) (X0 : Vec Ideal S1024x1024 .f32) : Prop :=
  ∀ (p q : Fin 1024) (hr : 1024 * bi + p.val < 4096) (hc : 1024 * bj + q.val < 50257),
    X0 (ix2 p q) = x (ix2 ⟨1024 * bi + p.val, hr⟩ ⟨1024 * bj + q.val, hc⟩)

/-- The label block staged at row block `bi`. -/
def StagedLabels (t : SR.Idx → BitVec 32) (bi : ℕ) (X1 : Vec Ideal S1024x1 .i32) : Prop :=
  ∀ (p : Fin 1024) (hr : 1024 * bi + p.val < 4096), X1 (ix2 p 0) = t (ix1 ⟨1024 * bi + p.val, hr⟩)

/-- The columns of column block `bj`. -/
def blockCols (bj : ℕ) : Finset (Fin 50257) := colsBelow (min (1024 * (bj + 1)) 50257) \ colsBelow (1024 * bj)

end Cert.KernelIdeal.Hand

end
-- ==== Proof.Lanes.lean ====
/-
  The 1024 lanes of a column block, re-indexed onto the block's columns of the table: lane `q` of column block `bj`
  is column `1024 * bj + q` when that is below 50257 (in the last block the lanes past the table's end are no
  column). A sum, and a supremum, over the lanes whose terms vanish (are `⊥`) at the lanes that are no column is the
  sum (the supremum) over the block's columns.
-/
import proofs.«416316_j58136677319100_1_alg».proof.Proof.BlockDefs
import Mathlib.Data.EReal.Basic
import Mathlib.Algebra.BigOperators.Group.Finset.Basic
import Mathlib.Data.Finset.Lattice.Fold
import Mathlib.Data.Finset.Image

noncomputable section

namespace Cert.KernelIdeal.Hand

open Cert.CrossEntropy
open scoped BigOperators

/-- A column is in column block `bj` when it is at least `1024 * bj` and below `1024 * (bj + 1)`. -/
theorem mem_blockCols (bj : ℕ) (c : Fin 50257) : c ∈ blockCols bj ↔ 1024 * bj ≤ c.val ∧ c.val < 1024 * (bj + 1) := by
  have hc := c.isLt
  simp only [blockCols, colsBelow, Finset.mem_sdiff, Finset.mem_filter, Finset.mem_univ, true_and, lt_min_iff, not_lt]
  constructor
  · rintro ⟨⟨h1, -⟩, h2⟩; exact ⟨h2, h1⟩
  · rintro ⟨h1, h2⟩; exact ⟨⟨h2, hc⟩, h1⟩

/-- Lane `q` of column block `bj` as a column of the table (column 0 for a lane past the table's end). -/
def laneCol (bj : ℕ) (q : Fin 1024) : Fin 50257 :=
  if h : 1024 * bj + q.val < 50257 then ⟨1024 * bj + q.val, h⟩ else ⟨0, by norm_num⟩

/-- The lanes of column block `bj` that are columns of the table. -/
def lanesIn (bj : ℕ) : Finset (Fin 1024) := Finset.univ.filter fun q => 1024 * bj + q.val < 50257

theorem laneCol_val (bj : ℕ) (q : Fin 1024) (h : 1024 * bj + q.val < 50257) : (laneCol bj q).val = 1024 * bj + q.val := by
  rw [laneCol, dif_pos h]

theorem laneCol_injOn (bj : ℕ) : Set.InjOn (laneCol bj) (lanesIn bj) := by
  intro q hq q' hq' e
  simp only [lanesIn, Finset.coe_filter, Finset.mem_univ, true_and, Set.mem_setOf_eq] at hq hq'
  have h := congrArg Fin.val e
  rw [laneCol_val bj q hq, laneCol_val bj q' hq'] at h
  exact Fin.ext (by omega)

/-- The block's columns are its lanes that are columns. -/
theorem blockCols_eq_image (bj : ℕ) : blockCols bj = (lanesIn bj).image (laneCol bj) := by
  ext c
  rw [mem_blockCols, Finset.mem_image]
  have hc := c.isLt
  constructor
  · rintro ⟨h1, h2⟩
    have hq : 1024 * bj + (c.val - 1024 * bj) < 50257 := by omega
    refine ⟨⟨c.val - 1024 * bj, by omega⟩, ?_, ?_⟩
    · simp only [lanesIn, Finset.mem_filter, Finset.mem_univ, true_and]
      exact hq
    · apply Fin.ext
      rw [laneCol_val bj _ hq]
      show 1024 * bj + (c.val - 1024 * bj) = c.val
      omega
  · rintro ⟨q, hq, rfl⟩
    simp only [lanesIn, Finset.mem_filter, Finset.mem_univ, true_and] at hq
    have hq' := q.isLt
    rw [laneCol_val bj q hq]
    omega

theorem sum_lanes (bj : ℕ) (hbj : bj < 50) (f : Fin 50257 → EReal) :
    (∑ q : Fin 1024, if h : 1024 * bj + q.val < 50257 then f ⟨1024 * bj + q.val, h⟩ else 0) = ∑ c ∈ blockCols bj, f c := by
  rw [blockCols_eq_image, Finset.sum_image (laneCol_injOn bj), lanesIn, Finset.sum_filter]
  refine Finset.sum_congr rfl fun q _ => ?_
  by_cases h : 1024 * bj + q.val < 50257
  · rw [dif_pos h, if_pos h, laneCol, dif_pos h]
  · rw [dif_neg h, if_neg h]

theorem sup_lanes (bj : ℕ) (hbj : bj < 50) (f : Fin 50257 → EReal) :
    (Finset.univ.sup fun q : Fin 1024 => if h : 1024 * bj + q.val < 50257 then f ⟨1024 * bj + q.val, h⟩ else ⊥)
      = (blockCols bj).sup f := by
  rw [blockCols_eq_image, Finset.sup_image]
  apply le_antisymm
  · refine Finset.sup_le fun q _ => ?_
    by_cases h : 1024 * bj + q.val < 50257
    · rw [dif_pos h]
      have hm : q ∈ lanesIn bj := by
        simp only [lanesIn, Finset.mem_filter, Finset.mem_univ, true_and]; exact h
      refine le_trans (le_of_eq ?_) (Finset.le_sup (f := f ∘ laneCol bj) hm)
      show f _ = f (laneCol bj q)
      rw [laneCol, dif_pos h]
    · rw [dif_neg h]; exact bot_le
  · refine Finset.sup_le fun q hq => ?_
    simp only [lanesIn, Finset.mem_filter, Finset.mem_univ, true_and] at hq
    refine le_trans (le_of_eq ?_)
      (Finset.le_sup (f := fun q : Fin 1024 => if h : 1024 * bj + q.val < 50257 then f ⟨1024 * bj + q.val, h⟩ else ⊥)
        (Finset.mem_univ q))
    show f (laneCol bj q) = _
    rw [dif_pos hq, laneCol, dif_pos hq]

end Cert.KernelIdeal.Hand

end
-- ==== Proof.Reads.lean ====
/-
  The running maximum and the running sum of exponentials that one run of the body leaves, read at a row of the ideal
  instance as the mathematics they are: over the columns of the column block, of the table's entries.

  The body masks the lanes past the table's last column with `-∞` (a select of the staged block against the column
  numbers `1024·bj + lane` compared with 50257), takes the lane maximum and the lane sum of the shifted exponentials, and
  folds them into the running statistics. A masked lane contributes `-∞` to the maximum and `exp (-∞ - m) = 0` to the
  sum, whatever extended real `m` is; the 1024 lanes, the masked ones dropped, are the block's columns.
-/
import proofs.«416316_j58136677319100_1_alg».proof.Proof.Lanes
import proofs.«416316_j58136677319100_1_alg».proof.Proof.BlockDefs
import proofs.«416316_j58136677319100_1_alg».proof.Proof.Stats
import proofs.«416316_j58136677319100_1_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx Idealize.SL.Sem
open Cert.KernelIdeal Cert.KernelIdeal.Gen Cert.CrossEntropy

namespace Reads

/-! ## The three layout operations of the body, read by coordinates -/

section Layout
variable {α : Type}

/-- The source index of a row reduction: row `p`, lane `q`. -/
theorem lift_row (p q : Fin 1024) : reduces_S1024x1024_S1024.lift (ix1 p) q = ix2 p q := by
  funext a
  match a with
  | ⟨0, _⟩ => exact Fin.ext rfl
  | ⟨1, _⟩ => exact Fin.ext rfl

/-- A vector of 1024 entries viewed as a column reads, at `(p, 0)`, its entry `p`. -/
theorem castCol_apply (v : S1024.Idx → α) (p : Fin 1024) :
    shapeCast S1024x1 v shapeCasts_S1024_S1024x1 (ix2 p (0 : Fin 1)) = v (ix1 p) :=
  shapeCast_apply v _ _ _ (by
    rw [Shape.rowMajor_val_two, Shape.rowMajor_val_one]
    show p.val = p.val * 1 + 0
    omega)

/-- A column broadcast along the lanes reads, at `(p, q)`, the column at `(p, 0)`. -/
theorem bcastCol_apply (v : S1024x1.Idx → α) (p q : Fin 1024) :
    broadcastTo S1024x1024 v broadcasts_S1024x1_S1024x1024 (ix2 p q) = v (ix2 p (0 : Fin 1)) := by
  refine broadcastTo_apply v _ (ix2 p q) (ix2 p (0 : Fin 1)) fun ax => ?_
  match ax with
  | ⟨0, _⟩ => rfl
  | ⟨1, _⟩ => rfl

end Layout

/-! ## The column number of a lane, as a word -/

/-- A select on a decided comparison is the `if`. -/
theorem select_ofBool {α : Type} (b : Bool) (u v : α) : Scalar.select (BitVec.ofBool b) u v = if b then u else v := by
  cases b
  · exact select_zero u v
  · exact select_one u v

/-- The column word of lane `q` in column block `bj` is the number `1024·bj + q`: nothing wraps below `2^31`. -/
theorem colWord_eq (bj q : ℕ) : BitVec.ofNat 32 bj * 1024#32 + BitVec.ofNat 32 q = BitVec.ofNat 32 (1024 * bj + q) := by
  rw [Nat.mul_comm 1024 bj, BitVec.ofNat_add, BitVec.ofNat_mul]

theorem colWord_toNat (bj q : ℕ) (hbj : bj < 50) (hq : q < 1024) : (BitVec.ofNat 32 (1024 * bj + q)).toNat = 1024 * bj + q := by
  rw [BitVec.toNat_ofNat]; exact Nat.mod_eq_of_lt (by omega)

/-- The column word is below 50257 as a signed word exactly when the column number is. -/
theorem colWord_slt (bj q : ℕ) (hbj : bj < 50) (hq : q < 1024) :
    (BitVec.ofNat 32 (1024 * bj + q)).slt 50257#32 = decide (1024 * bj + q < 50257) := by
  have h1 := colWord_toNat bj q hbj hq
  rw [BitVec.slt_eq_decide, BitVec.toInt_eq_toNat_of_lt (by rw [h1]; omega), h1]
  have : (50257#32 : BitVec 32).toInt = 50257 := by decide
  rw [this]
  exact decide_eq_decide.mpr (by omega)

/-! ## The lane reductions and the two running statistics, over any block -/

section Reductions

/-- The accumulator of the lane maximum is `-∞`. -/
theorem ofBits_negInf : Ideal.ofBits .f32 0xFF800000#32 = (⊥ : EReal) := by simp [Ideal.ofBits, Ideal.ieee]

/-- The maximum over the lanes of row `p`: the supremum of the row's 1024 entries. -/
theorem rowMax_apply (src : FVec Ideal S1024x1024 .f32) (p : Fin 1024) :
    multiReduction (F := Ideal) .maximumf [1] S1024 src 0xFF800000#32 reduces_S1024x1024_S1024 (.inl rfl) rfl (ix1 p)
      = Finset.univ.sup fun q : Fin 1024 => src (ix2 p q) := by
  refine (Ideal.multiReduction_maximumf_single src 0xFF800000#32 reduces_S1024x1024_S1024 (.inl rfl) rfl (ix1 p)).trans ?_
  have hfun : (src ∘ reduces_S1024x1024_S1024.lift (ix1 p)) = fun q : Fin 1024 => src (ix2 p q) :=
    funext fun q => congrArg src (lift_row p q)
  rw [hfun]
  show Finset.fold max (Ideal.ofBits .f32 0xFF800000#32) (fun q : Fin 1024 => src (ix2 p q)) Finset.univ = _
  rw [ofBits_negInf]
  rfl

/-- The sum over the lanes of row `p`. -/
theorem rowSum_apply (src : FVec Ideal S1024x1024 .f32) (p : Fin 1024) :
    multiReduction (F := Ideal) .add [1] S1024 src 0x00000000#32 reduces_S1024x1024_S1024 (.inl rfl) rfl (ix1 p)
      = ∑ q : Fin 1024, src (ix2 p q) :=
  (Ideal.multiReduction_add_single src 0x00000000#32 reduces_S1024x1024_S1024 (.inl rfl) rfl (ix1 p)).trans
    (Finset.sum_congr rfl fun q _ => congrArg src (lift_row p q))

/-- The exponential of a vector reads the exponential of its entry. -/
theorem exp_apply {s : Shape} (v : FVec Ideal s .f32) (i : s.Idx) : exp v i = Ideal.exp (v i) := rfl

/-- The running maximum after a block `Y`, from the running maximum `M`: at row `p`, the larger of `M` and the
    row's supremum. -/
theorem runMax_apply (Y : FVec Ideal S1024x1024 .f32) (M : FVec Ideal S1024x1 .f32) (p : Fin 1024) :
    maximumf M (shapeCast S1024x1 (multiReduction (F := Ideal) .maximumf [1] S1024 Y 0xFF800000#32
        reduces_S1024x1024_S1024 (.inl rfl) rfl) shapeCasts_S1024_S1024x1) (ix2 p (0 : Fin 1))
      = max (M (ix2 p 0)) (Finset.univ.sup fun q : Fin 1024 => Y (ix2 p q)) := by
  rw [maximumf_apply, castCol_apply, rowMax_apply]

/-- The running sum of exponentials after a block `Y`, from the running maximum `M`, the new one `m` and the running
    sum `L`: the old sum rescaled to the new maximum plus the row's exponentials shifted by it. -/
theorem runSum_apply (Y : FVec Ideal S1024x1024 .f32) (M m L : FVec Ideal S1024x1 .f32) (p : Fin 1024) :
    shapeCast S1024x1 (addf (mulf (exp (subf M m)) L) (shapeCast S1024x1 (multiReduction (F := Ideal) .add [1] S1024
        (exp (subf Y (broadcastTo S1024x1024 m broadcasts_S1024x1_S1024x1024))) 0x00000000#32
        reduces_S1024x1024_S1024 (.inl rfl) rfl) shapeCasts_S1024_S1024x1)) shapeCasts_S1024x1_S1024x1 (ix2 p (0 : Fin 1))
      = Ideal.exp (M (ix2 p 0) - m (ix2 p 0)) * L (ix2 p 0) + ∑ q : Fin 1024, Ideal.exp (Y (ix2 p q) - m (ix2 p 0)) := by
  rw [shapeCast_self, addf_apply, mulf_apply, castCol_apply, rowSum_apply]
  simp only [exp_apply, subf_apply, bcastCol_apply]

end Reductions

/-! ## The body's values at an index -/

section Payloads
variable (ci : grid0.Coords)

/-- A column block's number is below 50. -/
theorem colBlock_lt : (ci 1).val < 50 := (ci 1).isLt

/-- The column numbers: lane `q` of column block `bj` carries the word of `1024·bj + q`. -/
theorem colNumber_apply (p q : Fin 1024) : k0_pay6 ci (ix2 p q) = BitVec.ofNat 32 (1024 * (ci 1).val + q.val) := by
  unfold k0_pay6
  show IntOp.addi (IntOp.muli (BitVec.ofNat 32 (ci 1).val) 1024#32) (iota .tc S1024x1024 32 [1] iota_S1024x1024_d1_w32 (ix2 p q)) = _
  rw [iota_single_apply]
  exact colWord_eq _ _

/-- The constant that masks the lanes past the table's last column is `-∞`. -/
theorem negBig_eq : Named.named (F := Ideal) κ "neg_big" (φ := .f32) 0xFF333332#32 = (⊥ : EReal) :=
  IdealRules.named_const.ideal_named_scalar _ _ _ _ rfl

/-- The masked block: the staged entry on a lane inside the table, `-∞` past its last column. -/
theorem masked_apply (X0 : Vec Ideal S1024x1024 .f32) (p q : Fin 1024) :
    k0_pay7 (F := Ideal) ci X0 (ix2 p q) = if 1024 * (ci 1).val + q.val < 50257 then X0 (ix2 p q) else ⊥ := by
  unfold k0_pay7
  show Scalar.select (BitVec.ofBool ((k0_pay6 ci (ix2 p q)).slt 50257#32)) (X0 (ix2 p q)) (Named.named (F := Ideal) κ "neg_big" (φ := .f32) 0xFF333332#32) = _
  rw [colNumber_apply, colWord_slt _ _ (colBlock_lt ci) q.isLt, select_ofBool, negBig_eq]
  simp only [decide_eq_true_eq]

/-- The new running maximum is the running maximum folded with the masked block's lane maximum. -/
theorem pay8_eq (X0 : Vec Ideal S1024x1024 .f32) (M : Vec Ideal S1024x1 .f32) :
    k0_pay8 (F := Ideal) ci X0 M = maximumf M (shapeCast S1024x1 (multiReduction (F := Ideal) .maximumf [1] S1024
      (k0_pay7 ci X0) 0xFF800000#32 reduces_S1024x1024_S1024 (.inl rfl) rfl) shapeCasts_S1024_S1024x1) := rfl

/-- What is stored as the new running maximum is that value. -/
theorem newM_eq (X0 : Vec Ideal S1024x1024 .f32) (M : Vec Ideal S1024x1 .f32) :
    newM (F := Ideal) ci X0 M = k0_pay8 (F := Ideal) ci X0 M := by
  unfold newM k0_pay10
  exact shapeCast_self _ _

/-- The new running sum, over the masked block and the new running maximum. -/
theorem pay9_eq (X0 : Vec Ideal S1024x1024 .f32) (M L : Vec Ideal S1024x1 .f32) :
    k0_pay9 (F := Ideal) ci X0 M L
      = shapeCast S1024x1 (addf (mulf (exp (subf M (k0_pay8 ci X0 M))) L) (shapeCast S1024x1 (multiReduction (F := Ideal) .add [1] S1024
        (exp (subf (k0_pay7 ci X0) (broadcastTo S1024x1024 (k0_pay8 ci X0 M) broadcasts_S1024x1_S1024x1024))) 0x00000000#32
        reduces_S1024x1024_S1024 (.inl rfl) rfl) shapeCasts_S1024_S1024x1)) shapeCasts_S1024x1_S1024x1 := rfl

end Payloads

/-! ## The masked block in the table's terms -/

section Staged
variable (ci : grid0.Coords) (bi bj : ℕ) (hj : (ci 1).val = bj)
  (x : SX.Idx → EReal) (X0 : Vec Ideal S1024x1024 .f32) (hX0 : Staged x bi bj X0) (p : Fin 1024) (hr : 1024 * bi + p.val < 4096)
include hj hX0

/-- The masked block at row `p`, lane `q`: the table's entry at column `1024·bj + q` inside the table, `-∞` past its
    last column. -/
theorem masked_staged (q : Fin 1024) :
    k0_pay7 (F := Ideal) ci X0 (ix2 p q)
      = if h : 1024 * bj + q.val < 50257 then x (ix2 ⟨1024 * bi + p.val, hr⟩ ⟨1024 * bj + q.val, h⟩) else ⊥ := by
  rw [masked_apply, hj]
  by_cases h : 1024 * bj + q.val < 50257
  · rw [if_pos h, dif_pos h]; exact hX0 p q hr h
  · rw [if_neg h, dif_neg h]

end Staged

end Reads

open Reads

/-! ## The two statistics over the block's columns -/

variable (ci : grid0.Coords) (bi bj : ℕ) (hi : (ci 0).val = bi) (hj : (ci 1).val = bj) (hbi : bi < 4) (hbj : bj < 50)
  (x : SX.Idx → EReal) (X0 : Vec Ideal S1024x1024 .f32) (hX0 : Staged x bi bj X0) (p : Fin 1024) (hr : 1024 * bi + p.val < 4096)

include hj hX0

/-- The new running maximum at row `p`: the larger of the running maximum and the largest entry of the row among the
    block's columns. -/
theorem newM_apply (M : Vec Ideal S1024x1 .f32) :
    newM (F := Ideal) ci X0 M (ix2 p 0) = max (M (ix2 p 0)) ((blockCols bj).sup fun c => x (ix2 ⟨1024 * bi + p.val, hr⟩ c)) := by
  have hb : bj < 50 := hj ▸ colBlock_lt ci
  rw [newM_eq, pay8_eq, runMax_apply]
  refine congrArg (max (M (ix2 p 0))) ?_
  exact (Finset.sup_congr rfl fun q _ => masked_staged ci bi bj hj x X0 hX0 p hr q).trans
    (sup_lanes bj hb fun c => x (ix2 ⟨1024 * bi + p.val, hr⟩ c))

/-- The new running sum at row `p`: the running sum rescaled from the old maximum to the new one, plus the exponentials of
    the row's entries among the block's columns shifted by the new maximum. A masked lane adds `exp (-∞ - m) = 0` whatever
    `m` is. -/
theorem newL_apply (M L : Vec Ideal S1024x1 .f32) :
    newL (F := Ideal) ci X0 M L (ix2 p 0)
      = Ideal.exp (M (ix2 p 0) - newM (F := Ideal) ci X0 M (ix2 p 0)) * L (ix2 p 0)
        + ∑ c ∈ blockCols bj, Ideal.exp (x (ix2 ⟨1024 * bi + p.val, hr⟩ c) - newM (F := Ideal) ci X0 M (ix2 p 0)) := by
  have hb : bj < 50 := hj ▸ colBlock_lt ci
  unfold newL
  rw [newM_eq, pay9_eq, runSum_apply]
  generalize k0_pay8 (F := Ideal) ci X0 M (ix2 p 0) = m
  refine congrArg (Ideal.exp (M (ix2 p 0) - m) * L (ix2 p 0) + ·) ?_
  refine (Finset.sum_congr rfl fun q _ => ?_).trans
    (sum_lanes bj hb fun c => Ideal.exp (x (ix2 ⟨1024 * bi + p.val, hr⟩ c) - m))
  rw [masked_staged ci bi bj hj x X0 hX0 p hr q]
  by_cases h : 1024 * bj + q.val < 50257
  · rw [dif_pos h, dif_pos h]
  · rw [dif_neg h, dif_neg h, EReal.bot_sub]; rfl

end Cert.KernelIdeal.Hand

end
-- ==== Proof.ReadsPick.lean ====
/-
  Three of the body's payloads read at a row of their block, on the extended reals: the running pick of the label's
  entry after a column block (the previous pick plus the sum over the block's columns of the table's entry at the
  row's label), the result (`M + log L - T`), and the values the statistics are reset to (`-∞`, `0`, `0`).
  The pick sums, over the block's 1024 lanes, the staged entry where the lane's column word equals the row's label
  word and zero elsewhere; a label is below 50257, so a lane past the table's end matches no label.
-/
import proofs.«416316_j58136677319100_1_alg».proof.Proof.Stats
import proofs.«416316_j58136677319100_1_alg».proof.Proof.Spec
import proofs.«416316_j58136677319100_1_alg».proof.Proof.BlockDefs
import proofs.«416316_j58136677319100_1_alg».proof.Proof.Lanes
import proofs.«416316_j58136677319100_1_alg».proof.Proof.Indep
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.Affine

set_option maxRecDepth 16384

noncomputable section

namespace Cert.KernelIdeal.Hand

open Idealize.ShloMosaic Idealize.ShloMosaic.ValueIdx Idealize.SL.Sem
open Cert.KernelIdeal Cert.KernelIdeal.Gen Cert.CrossEntropy
open scoped BigOperators

/-- The index a reduction over the columns inserts: row `p`, column `q`. -/
theorem lift_eq (h : S1024x1024.Reduces [1] S1024) (p q : Fin 1024) : h.lift (ix1 p) q = ix2 p q := by
  funext a
  match a with
  | ⟨0, _⟩ => exact Fin.ext rfl
  | ⟨1, _⟩ => exact Fin.ext rfl

/-- The match bit at row `p`, lane `q`: the column word against the row's label. -/
theorem pay11_apply (ci : grid0.Coords) (bi : ℕ) (t : SR.Idx → BitVec 32) (X1 : Vec Ideal S1024x1 .i32)
    (hX1 : StagedLabels t bi X1) (p q : Fin 1024) (hr : 1024 * bi + p.val < 4096) :
    k0_pay11 (F := Ideal) ci X1 (ix2 p q) = IntOp.cmpi .eq (k0_pay6 ci (ix2 p q)) (t (ix1 ⟨1024 * bi + p.val, hr⟩)) := by
  unfold k0_pay11
  show IntOp.cmpi .eq (k0_pay6 ci (ix2 p q))
      (broadcastTo S1024x1024 (shapeCast S1024x1 X1 shapeCasts_S1024x1_S1024x1) broadcasts_S1024x1_S1024x1024 (ix2 p q)) = _
  rw [shapeCast_self, broadcastTo_apply X1 _ (ix2 p q) (ix2 p 0) (fun a => by
    match a with
    | ⟨0, _⟩ => exact (if_neg (show ¬(1024 : ℕ) = 1 by decide)).symm
    | ⟨1, _⟩ => exact (if_pos rfl).symm), hX1 p hr]

/-- One lane's term of the pick: the table's entry where the lane's column is the row's label, zero elsewhere and
    at the lanes past the table's end. -/
theorem pick_term (ci : grid0.Coords) (bi bj : ℕ) (hj : (ci 1).val = bj) (x : SX.Idx → EReal)
    (X0 : Vec Ideal S1024x1024 .f32) (hX0 : Staged x bi bj X0) (p : Fin 1024) (hr : 1024 * bi + p.val < 4096)
    (t : SR.Idx → BitVec 32) (ht : ∀ r, (t r).toNat < 50257) (X1 : Vec Ideal S1024x1 .i32) (hX1 : StagedLabels t bi X1)
    (q : Fin 1024) :
    select (k0_pay11 (F := Ideal) ci X1) X0 (broadcast S1024x1024 (FloatOps.ofBits (F := Ideal) .f32 0x00000000#32)) (ix2 p q)
      = if h : 1024 * bj + q.val < 50257 then
          (if (⟨1024 * bj + q.val, h⟩ : Fin 50257) = label t ⟨1024 * bi + p.val, hr⟩
            then x (ix2 ⟨1024 * bi + p.val, hr⟩ ⟨1024 * bj + q.val, h⟩) else 0)
        else 0 := by
  have hw : (k0_pay6 ci (ix2 p q)).toNat = 1024 * bj + q.val := by
    rw [pay6_toNat, hj]
    show bj * 1024 + q.val = _
    omega
  have hl := ht (ix1 ⟨1024 * bi + p.val, hr⟩)
  have hlab : (label t ⟨1024 * bi + p.val, hr⟩).val = (t (ix1 ⟨1024 * bi + p.val, hr⟩)).toNat := by
    show (t (ix1 ⟨1024 * bi + p.val, hr⟩)).toNat % 50257 = _
    exact Nat.mod_eq_of_lt hl
  rw [select_apply, pay11_apply ci bi t X1 hX1 p q hr, broadcast_apply]
  by_cases e : k0_pay6 ci (ix2 p q) = t (ix1 ⟨1024 * bi + p.val, hr⟩)
  · have h : 1024 * bj + q.val < 50257 := by rw [← hw, e]; exact hl
    rw [IntOp.cmpi_eq.mpr e, select_one, dif_pos h, if_pos (Fin.ext (by rw [hlab, ← e, hw])), hX0 p q hr h]
  · rw [eq_zero_of_ne_one (fun h1 => e (IntOp.cmpi_eq.mp h1)), select_zero]
    show Ideal.ofBits .f32 0x00000000#32 = _
    rw [Ideal.ofBits_zero_f32]
    by_cases h : 1024 * bj + q.val < 50257
    · rw [dif_pos h, if_neg]
      intro e'
      apply e
      apply BitVec.eq_of_toNat_eq
      rw [hw, ← hlab, ← e']
    · rw [dif_neg h]

/-- The result block: the running maximum plus the logarithm of the running sum, less the picked entry. -/
theorem out_apply (p : Fin 1024) (M L T : Vec Ideal S1024x1 .f32) :
    k0_pay2 (F := Ideal) M L T (ix2 p 0) = M (ix2 p 0) + Ideal.log (L (ix2 p 0)) - T (ix2 p 0) := by
  rfl

/-- The reset values: `-∞`, `0`, `0`. -/
theorem reset_apply (p : Fin 1024) :
    k0_pay3 (F := Ideal) (ix2 p 0) = ⊥ ∧ k0_pay4 (F := Ideal) (ix2 p 0) = 0 ∧ k0_pay5 (F := Ideal) (ix2 p 0) = 0 := by
  refine ⟨?_, ?_, ?_⟩
  · unfold k0_pay3
    rw [shapeCast_self, broadcast_apply]
    show Ideal.ofBits .f32 0xFF800000#32 = ⊥
    simp [Ideal.ofBits, Ideal.ieee]
  · unfold k0_pay4
    rw [shapeCast_self, broadcast_apply]
    exact Ideal.ofBits_zero_f32
  · unfold k0_pay5
    rw [shapeCast_self, broadcast_apply]
    exact Ideal.ofBits_zero_f32

theorem newT_apply (ci : grid0.Coords) (bi bj : ℕ) (hj : (ci 1).val = bj) (x : SX.Idx → EReal)
    (X0 : Vec Ideal S1024x1024 .f32) (hX0 : Staged x bi bj X0) (p : Fin 1024) (hr : 1024 * bi + p.val < 4096)
    (t : SR.Idx → BitVec 32) (ht : ∀ r, (t r).toNat < 50257) (X1 : Vec Ideal S1024x1 .i32) (hX1 : StagedLabels t bi X1)
    (T : Vec Ideal S1024x1 .f32) :
    newT (F := Ideal) ci X0 X1 T (ix2 p 0)
      = T (ix2 p 0) + ∑ c ∈ blockCols bj,
          if c = label t ⟨1024 * bi + p.val, hr⟩ then x (ix2 ⟨1024 * bi + p.val, hr⟩ c) else 0 := by
  have hbj : bj < 50 := hj ▸ (ci 1).isLt
  unfold newT k0_pay1
  dsimp only
  rw [shapeCast_self]
  have e1 : ∀ v : FVec Ideal S1024 .f32, shapeCast S1024x1 v shapeCasts_S1024_S1024x1 (ix2 p 0) = v (ix1 p) := fun v =>
    shapeCast_apply v _ (ix2 p 0) (ix1 p) (by
      rw [Shape.rowMajor_val_one, Shape.rowMajor_val_two]
      show p.val = p.val * 1 + 0
      omega)
  rw [addf_apply, e1]
  refine (congrArg (T (ix2 p 0) + ·) (Ideal.multiReduction_add_single _ _ _ _ _ (ix1 p))).trans ?_
  refine congrArg (T (ix2 p 0) + ·) ?_
  rw [← sum_lanes bj hbj fun c => if c = label t ⟨1024 * bi + p.val, hr⟩ then x (ix2 ⟨1024 * bi + p.val, hr⟩ c) else 0]
  refine Finset.sum_congr rfl fun (q : Fin 1024) _ => ?_
  rw [lift_eq]
  exact pick_term ci bi bj hj x X0 hX0 p hr t ht X1 hX1 q

end Cert.KernelIdeal.Hand

end
-- ==== Proof.StagedBlocks.lean ====
/-
  Which entries of the arrays the windows' blocks are: a block's coordinate on an axis is the block index times the
  block's extent plus the coordinate inside the block, and over the grid's 200 points the block indices are, for the
  logits window, (row block, column block) = (t / 50, t % 50), and for the label window and the result window
  (t / 50, 0). The logits window's last column block overhangs the table (50257 = 49 · 1024 + 81): the transfer there
  moves the first 81 columns only, and the staged block is stated on the columns inside the table.
-/
import proofs.«416316_j58136677319100_1_alg».proof.Proof.Data
import proofs.«416316_j58136677319100_1_alg».proof.Proof.BlockDefs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.CrossEntropy

variable (m : (ℓ : Loc nD τ sig) → Buf (Elt Ideal) ℓ) (c : Dev nD) (t : Fin cfg0.N)

/-- The printed index maps, decided over the grid: the logits window's block index at point `t` is
    `(t / 50, t % 50)`, the label window's and the result window's `(t / 50, 0)`. -/
theorem idx_facts : ∀ t : Fin cfg0.N,
    win0_0.index t (0 : Fin 2) = t.val / 50 ∧ win0_0.index t (1 : Fin 2) = t.val % 50
    ∧ win0_1.index t (0 : Fin 2) = t.val / 50 ∧ win0_1.index t (1 : Fin 2) = 0
    ∧ win0_2.index t (0 : Fin 2) = t.val / 50 ∧ win0_2.index t (1 : Fin 2) = 0 :=
  (by decide +kernel : ∀ t : Fin grid0.N, _)

/-- What the logits window's transfer moves at point `t`: all 1024 rows of the block, and of its 1024 columns those
    inside the table. -/
theorem xsize_facts : ∀ t : Fin cfg0.N,
    win0_0.xsize (grid0.coords t) (0 : Fin 2) = 1024
    ∧ win0_0.xsize (grid0.coords t) (1 : Fin 2) = min 1024 (50257 - 1024 * (t.val % 50)) :=
  (by decide +kernel : ∀ t : Fin grid0.N, _)

/-- The logits block point `t` stages holds, on the columns inside the table, the table's entries of row block
    `t / 50` and column block `t % 50`. -/
theorem xst_staged :
    Staged (m ((c : Thread nD τ).loc main_arg0)) (t.val / 50) (t.val % 50) (xst (F := Ideal) m c t) := by
  intro p q hr hc
  obtain ⟨e0, e1, -, -, -, -⟩ := idx_facts t
  obtain ⟨x0, x1⟩ := xsize_facts t
  -- a column inside the table is among the columns the transfer moves
  have hmv : win0_0.moved (grid0.coords t) (ix2 p q) = true := by
    rw [Window.moved_iff]
    intro a
    match a with
    | ⟨0, _⟩ => show p.val < win0_0.xsize (grid0.coords t) (0 : Fin 2); rw [x0]; exact p.isLt
    | ⟨1, _⟩ => show q.val < win0_0.xsize (grid0.coords t) (1 : Fin 2); rw [x1]; have := q.isLt; omega
  unfold xst Window.fill
  rw [dif_pos hmv]
  show V m c main_arg0 (((cfg0.win 0).blk t).view.emb _) = _
  rw [V_main_arg0]
  refine congrArg _ (funext fun a => Fin.ext ?_)
  match a with
  | ⟨0, _⟩ => show win0_0.index t (0 : Fin 2) * 1024 + 1 * p.val = 1024 * (t.val / 50) + p.val; omega
  | ⟨1, _⟩ => show win0_0.index t (1 : Fin 2) * 1024 + 1 * q.val = 1024 * (t.val % 50) + q.val; omega

/-- The label block it stages holds the labels of row block `t / 50`. -/
theorem lst_staged :
    StagedLabels (m ((c : Thread nD τ).loc main_arg1)) (t.val / 50) (lst (F := Ideal) m c t) := by
  intro p hr
  obtain ⟨-, -, e0, e1, -, -⟩ := idx_facts t
  show (V m c main_v0 : S4096x1.Idx → BitVec 32) (((cfg0.win 1).blk t).view.emb (ix2 p 0)) = _
  rw [V_labels]
  refine shapeCast_apply _ _ _ _ ?_
  show (S4096.rowMajor (ix1 ⟨1024 * (t.val / 50) + p.val, hr⟩)).val
    = (S4096x1.rowMajor (((cfg0.win 1).blk t).view.emb (ix2 p 0))).val
  rw [Shape.rowMajor_val_one, Shape.rowMajor_val_two]
  show 1024 * (t.val / 50) + p.val = (win0_1.index t (0 : Fin 2) * 1024 + 1 * p.val) * 1 + (win0_1.index t (1 : Fin 2) * 1 + 1 * 0)
  omega

/-- The result window's block at a point is rows `1024·(t / 50) …` of the result column. -/
theorem out_block (G : S4096x1.Idx → EReal) (y : S1024x1.Idx) (hr : 1024 * (t.val / 50) + (y 0).val < 4096) :
    ((cfg0.win 2).blk t).view.read (Elt Ideal) G y = G (ix2 ⟨1024 * (t.val / 50) + (y 0).val, hr⟩ 0) := by
  obtain ⟨-, -, -, -, e0, e1⟩ := idx_facts t
  show G (((cfg0.win 2).blk t).view.emb y) = G _
  refine congrArg G (funext fun a => Fin.ext ?_)
  match a with
  | ⟨0, _⟩ => show win0_2.index t (0 : Fin 2) * 1024 + 1 * (y 0).val = 1024 * (t.val / 50) + (y 0).val; omega
  | ⟨1, _⟩ => show win0_2.index t (1 : Fin 2) * 1 + 1 * (y 1).val = 0; have : (y 1).val < 1 := (y 1).isLt; omega

theorem out_rows (y : S1024x1.Idx) : 1024 * (t.val / 50) + (y 0).val < 4096 := by
  have hy : (y 0).val < 1024 := (y 0).isLt
  have ht : t.val < 200 := lt_of_lt_of_eq t.isLt N_eq
  omega

/-- Every row of the result column is in the block some last column block writes back. -/
theorem out_cover (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 200 := N_eq
  -- the last column block of the row's row block
  have ht : 50 * ((i 0).val / 1024) + 49 < cfg0.N := by rw [hN]; omega
  refine ⟨⟨50 * ((i 0).val / 1024) + 49, ht⟩, (flush0_2 _).mpr (by show (50 * ((i 0).val / 1024) + 49) % 50 = 49; omega), ?_⟩
  obtain ⟨-, -, -, -, e0, e1⟩ := idx_facts ⟨50 * ((i 0).val / 1024) + 49, ht⟩
  have tv : (⟨50 * ((i 0).val / 1024) + 49, ht⟩ : Fin cfg0.N).val = 50 * ((i 0).val / 1024) + 49 := rfl
  show i ∈ ((View.whole main_v1).slice (win0_2.rect ⟨50 * ((i 0).val / 1024) + 49, ht⟩)).set
  rw [View.set_slice_whole, Rect.mem_set_unit]
  intro a
  match a with
  | ⟨0, _⟩ =>
    show win0_2.index ⟨50 * ((i 0).val / 1024) + 49, ht⟩ (0 : Fin 2) * 1024 ≤ (i 0).val
      ∧ (i 0).val < win0_2.index ⟨50 * ((i 0).val / 1024) + 49, ht⟩ (0 : Fin 2) * 1024 + 1024
    omega
  | ⟨1, _⟩ =>
    show win0_2.index ⟨50 * ((i 0).val / 1024) + 49, ht⟩ (1 : Fin 2) * 1 ≤ (i 1).val
      ∧ (i 1).val < win0_2.index ⟨50 * ((i 0).val / 1024) + 49, ht⟩ (1 : Fin 2) * 1 + 1
    omega

end Cert.KernelIdeal.Hand

end
-- ==== Proof.Softmax.lean ====
/-
  The prefix quantities of the specification, as mathematics on the extended reals: how the running maximum,
  the running shifted exponential sum and the running pick of the label's entry grow when the prefix of
  columns grows, and that over the whole row they give the negative log-likelihood in the order a
  log-softmax followed by a pick and a negation computes it.
-/
import proofs.«416316_j58136677319100_1_alg».proof.Proof.Spec
import Mathlib.Data.EReal.Basic
import Mathlib.Data.EReal.Operations
import Mathlib.Analysis.SpecialFunctions.Log.Basic
import Mathlib.Analysis.SpecialFunctions.Exp
import Mathlib.Algebra.BigOperators.Group.Finset.Basic
import Mathlib.Algebra.Order.BigOperators.Group.Finset
import Mathlib.Order.Interval.Finset.Fin
import Mathlib.Data.Finset.Lattice.Fold

noncomputable section

namespace Cert.CrossEntropy

open Idealize.ShloMosaic Idealize.ShloMosaic.ValueIdx
open scoped BigOperators

/-! ### The sets of columns -/

/-- No column lies before column 0. -/
theorem colsBelow_zero : colsBelow 0 = ∅ := by
  simp [colsBelow]

/-- A longer prefix contains a shorter one. -/
theorem colsBelow_mono {n n' : ℕ} (h : n ≤ n') : colsBelow n ⊆ colsBelow n' := by
  intro c hc
  simp only [colsBelow, Finset.mem_filter, Finset.mem_univ, true_and] at hc ⊢
  omega

/-- All 50257 columns lie before column 50257. -/
theorem colsBelow_full : colsBelow 50257 = Finset.univ := by
  ext c
  simp only [colsBelow, Finset.mem_filter, Finset.mem_univ, true_and, iff_true]
  exact c.isLt

/-- A nonempty prefix contains column 0. -/
theorem zero_mem_colsBelow {n : ℕ} (hn : 0 < n) : (⟨0, by norm_num⟩ : Fin 50257) ∈ colsBelow n := by
  simp only [colsBelow, Finset.mem_filter, Finset.mem_univ, true_and]
  exact hn

/-- A real-valued finite sum, read in the extended reals, is the sum of the readings. -/
theorem coe_sum {ι : Type} (s : Finset ι) (f : ι → ℝ) :
    ∑ c ∈ s, (f c : EReal) = ((∑ c ∈ s, f c : ℝ) : EReal) := by
  classical
  induction s using Finset.induction_on with
  | empty => simp
  | insert a s ha ih => rw [Finset.sum_insert ha, Finset.sum_insert ha, ih, EReal.coe_add]

/-! ### The empty prefix -/

theorem prefMax_zero (x : SX.Idx → EReal) (r : Fin 4096) : prefMax x r 0 = ⊥ := by
  rw [prefMax, colsBelow_zero, Finset.sup_empty]

theorem prefSum_zero (x : SX.Idx → EReal) (r : Fin 4096) : prefSum x r 0 = 0 := by
  rw [prefSum, colsBelow_zero, Finset.sum_empty]

theorem prefPick_zero (x : SX.Idx → EReal) (t : SR.Idx → BitVec 32) (r : Fin 4096) : prefPick x t r 0 = 0 := by
  rw [prefPick, colsBelow_zero, Finset.sum_empty]

/-! ### Growing the prefix -/

/-- The largest entry of a longer prefix is the larger of the shorter prefix's and the new columns'. -/
theorem prefMax_step (x : SX.Idx → EReal) (r : Fin 4096) {n n' : ℕ} (h : n ≤ n') :
    prefMax x r n' = max (prefMax x r n) ((colsBelow n' \ colsBelow n).sup fun c => x (ix2 r c)) := by
  rw [prefMax, prefMax, ← Finset.sup_union, Finset.union_sdiff_of_subset (colsBelow_mono h)]

/-- The pick over a longer prefix is the pick over the shorter one plus the pick over the new columns. -/
theorem prefPick_step (x : SX.Idx → EReal) (t : SR.Idx → BitVec 32) (r : Fin 4096) {n n' : ℕ} (h : n ≤ n') :
    prefPick x t r n + ∑ c ∈ colsBelow n' \ colsBelow n, (if c = label t r then x (ix2 r c) else 0)
      = prefPick x t r n' := by
  rw [prefPick, prefPick, add_comm, Finset.sum_sdiff (colsBelow_mono h)]

/-- Over a nonempty prefix of a table of reals the largest entry is one of the entries, so a real. -/
theorem prefMax_isReal (x : SX.Idx → EReal) (hx : ∀ i, IsReal (x i)) (r : Fin 4096) {n : ℕ} (hn : 0 < n) :
    IsReal (prefMax x r n) := by
  obtain ⟨c, -, hc⟩ := Finset.exists_mem_eq_sup (colsBelow n) ⟨_, zero_mem_colsBelow hn⟩ fun c => x (ix2 r c)
  rw [prefMax, hc]
  exact hx _

/-- Re-basing the shifted exponential sum: with `a` the shorter prefix's largest entry and `b` the longer one's,
    `exp (a - b) * ∑ exp (x - a) = ∑ exp (x - b)` over the shorter prefix, and the new columns add their own terms.
    For the empty shorter prefix both the factor's sum and the sum are zero. -/
theorem prefSum_step (x : SX.Idx → EReal) (hx : ∀ i, IsReal (x i)) (r : Fin 4096) {n n' : ℕ} (h : n < n')
    (h' : n' ≤ 50257) :
    Ideal.exp (prefMax x r n - prefMax x r n') * prefSum x r n
        + ∑ c ∈ colsBelow n' \ colsBelow n, Ideal.exp (x (ix2 r c) - prefMax x r n')
      = prefSum x r n' := by
  rcases Nat.eq_zero_or_pos n with rfl | hn
  · rw [prefSum_zero, mul_zero, zero_add, colsBelow_zero, Finset.sdiff_empty, prefSum]
  · obtain ⟨a, ha⟩ := prefMax_isReal x hx r hn
    obtain ⟨b, hb⟩ := prefMax_isReal x hx r (lt_trans hn h)
    choose y hy using hx
    have key : ∀ (s : Finset (Fin 50257)) (m : ℝ),
        ∑ c ∈ s, Ideal.exp (x (ix2 r c) - (m : EReal))
          = ((∑ c ∈ s, Real.exp (y (ix2 r c) - m) : ℝ) : EReal) := by
      intro s m
      rw [← coe_sum]
      refine Finset.sum_congr rfl fun c _ => ?_
      rw [hy, ← EReal.coe_sub, Ideal.exp_coe]
    have hreal : Real.exp (a - b) * ∑ c ∈ colsBelow n, Real.exp (y (ix2 r c) - a)
          + ∑ c ∈ colsBelow n' \ colsBelow n, Real.exp (y (ix2 r c) - b)
        = ∑ c ∈ colsBelow n', Real.exp (y (ix2 r c) - b) := by
      rw [← Finset.sum_sdiff (colsBelow_mono h.le), Finset.mul_sum, add_comm]
      refine congrArg₂ (· + ·) rfl (Finset.sum_congr rfl fun c _ => ?_)
      rw [← Real.exp_add]
      exact congrArg Real.exp (by ring)
    rw [prefSum, prefSum, ha, hb, key, key, key, ← EReal.coe_sub, Ideal.exp_coe, ← EReal.coe_mul, ← EReal.coe_add,
      hreal]

/-! ### The whole row -/

/-- Over all 50257 columns the prefix quantities are the row's, and the two orders of the same three reals agree:
    `M + ls - a = -((a - M) - ls)`. -/
theorem nll_row (x : SX.Idx → EReal) (hx : ∀ i, IsReal (x i)) (t : SR.Idx → BitVec 32) (r : Fin 4096) :
    prefMax x r 50257 + Ideal.log (prefSum x r 50257) - prefPick x t r 50257
      = -((x (ix2 r (label t r)) - rowMax x r)
          - Ideal.log (∑ c : Fin 50257, Ideal.exp (x (ix2 r c) - rowMax x r))) := by
  have hM : prefMax x r 50257 = rowMax x r := by rw [prefMax, colsBelow_full, rowMax]
  have hP : prefPick x t r 50257 = x (ix2 r (label t r)) := by
    rw [prefPick, colsBelow_full, Finset.sum_ite_eq', if_pos (Finset.mem_univ _)]
  have hS : prefSum x r 50257 = ∑ c : Fin 50257, Ideal.exp (x (ix2 r c) - rowMax x r) := by
    rw [prefSum, hM, colsBelow_full]
  obtain ⟨m, hm⟩ : IsReal (rowMax x r) := hM ▸ prefMax_isReal x hx r (by norm_num)
  obtain ⟨a, ha⟩ := hx (ix2 r (label t r))
  choose y hy using hx
  have hsum : ∑ c : Fin 50257, Ideal.exp (x (ix2 r c) - rowMax x r)
      = ((∑ c : Fin 50257, Real.exp (y (ix2 r c) - m) : ℝ) : EReal) := by
    rw [← coe_sum]
    refine Finset.sum_congr rfl fun c _ => ?_
    rw [hy, hm, ← EReal.coe_sub, Ideal.exp_coe]
  have hpos : 0 < ∑ c : Fin 50257, Real.exp (y (ix2 r c) - m) :=
    Finset.sum_pos (fun c _ => Real.exp_pos _) ⟨⟨0, by norm_num⟩, Finset.mem_univ _⟩
  rw [hM, hS, hP, hsum, hm, ha, Ideal.log_coe, if_neg (not_le.mpr hpos), ← EReal.coe_add, ← EReal.coe_sub,
    ← EReal.coe_sub, ← EReal.coe_sub, ← EReal.coe_neg]
  exact congrArg _ (by ring)

theorem nll_eq_nllRef (x : SX.Idx → EReal) (hx : ∀ i, IsReal (x i)) (t : SR.Idx → BitVec 32) :
    nll x t = nllRef x t :=
  funext fun j => nll_row x hx t (j 0)

end Cert.CrossEntropy

end
-- ==== Proof.KernelValue.lean ====
/-
  The value of the idealized kernel's run: by induction over the column blocks of a row block the three statistics
  buffers hold the row's prefix maximum, prefix exponential sum and prefix pick, so the block stored at the last
  column block is the rows' negative log-likelihood; the stored blocks tile the result column, and the lines after the
  region only reshape it.
-/
import proofs.«416316_j58136677319100_1_alg».proof.Proof.Body
import proofs.«416316_j58136677319100_1_alg».proof.Proof.Reads
import proofs.«416316_j58136677319100_1_alg».proof.Proof.ReadsPick
import proofs.«416316_j58136677319100_1_alg».proof.Proof.StagedBlocks
import proofs.«416316_j58136677319100_1_alg».proof.Proof.Softmax
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen Cert.CrossEntropy

variable (m : (ℓ : Loc nD τ sig) → Buf (Elt Ideal) ℓ) (ρ : Dev nD → PrngReg)

/-- The logits and the labels a core is launched with. -/
abbrev xin (c : Dev nD) : SX.Idx → EReal := m ((c : Thread nD τ).loc main_arg0)
abbrev tin (c : Dev nD) : SR.Idx → BitVec 32 := m ((c : Thread nD τ).loc main_arg1)

/-- The columns seen once column block `bj` is done. -/
def seen (bj : ℕ) : ℕ := min (1024 * (bj + 1)) 50257

/-- ONE BLOCK. Statistics that are the row's prefix maximum, prefix sum and prefix pick over the columns before
    column block `bj` become, by the block's update, those over the columns through it: the maximum by the lattice
    law, the sum by the rescaling identity (the one place the logits' finiteness is used), the pick by splitting
    the sum. -/
theorem step_eq (x : SX.Idx → EReal) (hx : ∀ i, IsReal (x i)) (t : SR.Idx → BitVec 32) (ht : ∀ r, (t r).toNat < 50257)
    (ci : grid0.Coords) (bi bj : ℕ) (hj : (ci 1).val = bj) (hbj : bj < 50)
    (X0 : Vec Ideal S1024x1024 .f32) (hX0 : Staged x bi bj X0) (X1 : Vec Ideal S1024x1 .i32) (hX1 : StagedLabels t bi X1)
    (s : Stats Ideal) (p : Fin 1024) (r : Fin 4096) (hrow : r.val = 1024 * bi + p.val) (n0 : ℕ) (hn0 : n0 = 1024 * bj)
    (hs : s.1 (ix2 p 0) = prefMax x r n0 ∧ s.2.1 (ix2 p 0) = prefSum x r n0 ∧ s.2.2 (ix2 p 0) = prefPick x t r n0) :
    newM (F := Ideal) ci X0 s.1 (ix2 p 0) = prefMax x r (seen bj)
      ∧ newL (F := Ideal) ci X0 s.1 s.2.1 (ix2 p 0) = prefSum x r (seen bj)
      ∧ newT (F := Ideal) ci X0 X1 s.2.2 (ix2 p 0) = prefPick x t r (seen bj) := by
  subst hn0
  obtain ⟨rv, hrv⟩ := r
  have hrow' : rv = 1024 * bi + p.val := hrow
  subst hrow'
  have hle : 1024 * bj < seen bj := by unfold seen; omega
  have hle' : seen bj ≤ 50257 := by unfold seen; omega
  have hM : newM (F := Ideal) ci X0 s.1 (ix2 p 0) = prefMax x ⟨1024 * bi + p.val, hrv⟩ (seen bj) := by
    rw [newM_apply ci bi bj hj x X0 hX0 p hrv, hs.1]
    exact (prefMax_step x _ (Nat.le_of_lt hle)).symm
  refine ⟨hM, ?_, ?_⟩
  · rw [newL_apply ci bi bj hj x X0 hX0 p hrv, hM, hs.1, hs.2.1]
    exact prefSum_step x hx _ hle hle'
  · rw [newT_apply ci bi bj hj x X0 hX0 p hrv t ht X1 hX1, hs.2.2]
    exact prefPick_step x t _ (Nat.le_of_lt hle)

/-- EVERY POINT. After point `n` — row block `n / 50`, column block `n % 50` — row `p` of the statistics holds the
    prefix maximum, sum and pick of table row `1024·(n / 50) + p` over the columns seen so far: by induction on the
    point, a row block's first point starting from the values at no column. -/
theorem stats_eq (hT : LabelsOk m) (hx : ∀ c i, IsReal (xin m c i)) (c : Dev nD) :
    ∀ (n : ℕ) (hn : n < cfg0.N) (p : Fin 1024) (r : Fin 4096) (hrow : r.val = 1024 * (n / 50) + p.val),
      (statsAt m c n hn).1 (ix2 p 0) = prefMax (xin m c) r (seen (n % 50))
      ∧ (statsAt m c n hn).2.1 (ix2 p 0) = prefSum (xin m c) r (seen (n % 50))
      ∧ (statsAt m c n hn).2.2 (ix2 p 0) = prefPick (xin m c) (tin m c) r (seen (n % 50)) := by
  intro n
  induction n with
  | zero =>
    intro hn p r hrow
    exact step_eq (xin m c) (hx c) (tin m c) (hT c) (grid0.coords ⟨0, hn⟩) (0 / 50) (0 % 50) (coords_col ⟨0, hn⟩) (by omega)
      (xst m c ⟨0, hn⟩) (xst_staged m c ⟨0, hn⟩) (lst m c ⟨0, hn⟩) (lst_staged m c ⟨0, hn⟩) stats0 p r hrow 0 rfl
      ⟨by rw [prefMax_zero]; exact (reset_apply p).1,
       by rw [prefSum_zero]; exact (reset_apply p).2.1,
       by rw [prefPick_zero]; exact (reset_apply p).2.2⟩
  | succ k ih =>
    intro hn p r hrow
    by_cases h0 : (k + 1) % 50 = 0
    · rw [statsAt_first m c ⟨k + 1, hn⟩ h0]
      exact step_eq (xin m c) (hx c) (tin m c) (hT c) (grid0.coords ⟨k + 1, hn⟩) ((k + 1) / 50) ((k + 1) % 50)
        (coords_col ⟨k + 1, hn⟩) (Nat.mod_lt _ (by norm_num))
        (xst m c ⟨k + 1, hn⟩) (xst_staged m c ⟨k + 1, hn⟩) (lst m c ⟨k + 1, hn⟩) (lst_staged m c ⟨k + 1, hn⟩) stats0 p r hrow
        0 (by rw [h0])
        ⟨by rw [prefMax_zero]; exact (reset_apply p).1,
         by rw [prefSum_zero]; exact (reset_apply p).2.1,
         by rw [prefPick_zero]; exact (reset_apply p).2.2⟩
    · rw [statsAt_next m c ⟨k + 1, hn⟩ h0]
      have hdiv : k / 50 = (k + 1) / 50 := by omega
      have hseen : seen (k % 50) = 1024 * ((k + 1) % 50) := by unfold seen; omega
      exact step_eq (xin m c) (hx c) (tin m c) (hT c) (grid0.coords ⟨k + 1, hn⟩) ((k + 1) / 50) ((k + 1) % 50)
        (coords_col ⟨k + 1, hn⟩) (Nat.mod_lt _ (by norm_num))
        (xst m c ⟨k + 1, hn⟩) (xst_staged m c ⟨k + 1, hn⟩) (lst m c ⟨k + 1, hn⟩) (lst_staged m c ⟨k + 1, hn⟩)
        (statsAt m c k (Nat.lt_of_succ_lt hn)) p r hrow (seen (k % 50)) hseen
        (ih (Nat.lt_of_succ_lt hn) p r (by rw [hdiv]; exact hrow))

/-- The result column: row `i` holds the negative log-likelihood of table row `i`. -/
def outCol (c : Dev nD) : S4096x1.Idx → EReal := fun i => nll (xin m c) (tin m c) (ix1 (i 0))

/-- At a row block's last column block the stored result block is the result column's block. -/
theorem outAt_eq (hT : LabelsOk m) (hx : ∀ c i, IsReal (xin m c i)) (c : Dev nD) (t : Fin cfg0.N) (hl : t.val % 50 = 49)
    (y : S1024x1.Idx) :
    outAt m c t y = ((cfg0.win 2).blk t).view.read (Elt Ideal) (outCol m c) y := by
  obtain ⟨p, rfl⟩ : ∃ p : Fin 1024, y = ix2 p 0 :=
    ⟨y 0, funext fun a => match a with
      | ⟨0, _⟩ => rfl
      | ⟨1, _⟩ => Fin.ext (Nat.lt_one_iff.mp (y 1).isLt)⟩
  rw [out_block t (outCol m c) (ix2 p 0) (out_rows t (ix2 p 0))]
  obtain ⟨hM, hL, hP⟩ := stats_eq m hT hx c t.val t.isLt p ⟨1024 * (t.val / 50) + p.val, out_rows t (ix2 p 0)⟩ rfl
  have hseen : seen (t.val % 50) = 50257 := by rw [hl]; rfl
  rw [hseen] at hM hL hP
  unfold outAt
  rw [out_apply, hM, hL, hP]
  rfl

/-- So the result column after the run is `outCol`. -/
theorem final_col (hT : LabelsOk m) (hx : ∀ c i, IsReal (xin m c i)) (c : Dev nD) :
    (dats m 0 c).arrAt 2 cfg0.N = outCol m c :=
  (dats m 0 c).arrAt_eq_of_cover 2 (outCol m c)
    (fun t hf => by
      have hl : t.val % 50 = 49 := (flush0_2 t).mp hf
      show (dats m 0 c).after 2 t = _
      rw [after_2]
      exact funext fun y => outAt_eq m hT hx c t hl y)
    (out_cover)

/-- The result the lines after the region produce: the result column under the shape of a vector. -/
theorem final_result (hT : LabelsOk m) (hx : ∀ c i, IsReal (xin m c i)) (c : Dev nD) :
    Pipeline.afterTail₀ cfgs (dats m) 0 (V0 m) [hostOps1] c main_v2 = nll (xin m c) (tin m c) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1)
      = outCol m c from (Pipeline.withArrays_arr spec0 launch0.win.arr_inj c _ _ 2).trans (final_col m hT hx c)]
  funext j
  show shapeCast S4096 (outCol m c) shapeCasts_S4096x1_S4096 j = _
  obtain ⟨q, rfl⟩ : ∃ q : Fin 4096, j = ix1 q := ⟨j 0, eq_ix1 j⟩
  rw [shapeCast_apply (outCol m c) shapeCasts_S4096x1_S4096 (ix1 q) (ix2 q 0) (by
    rw [Shape.rowMajor_val_two, Shape.rowMajor_val_one]
    show q.val * 1 + 0 = q.val
    omega)]
  rfl

/-- THE KERNEL'S RUN AND VALUE: from a memory whose labels are columns of the table and whose logits are real,
    every weakly fair execution of @main terminates with the result at the rows' negative log-likelihoods and the
    arguments as they were. -/
theorem run_nll (hT : LabelsOk m) (hx : ∀ c i, IsReal (xin m c i)) :
    θ_run defs (onTc (τ := τ) (main (F := Ideal))) ⟨m, fun _ => 0, ρ⟩ (fun r => ∀ c : Dev nD,
      r.2.mem ((c.tc : Thread nD τ).loc main_v2) = nll (xin m c) (tin m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (final_result m hT hx c),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ hT)

end Cert.KernelIdeal.Hand

end
-- ==== Proof.RefValue.lean ====
/-
  The value of the reference program. Row by row it computes the log-softmax of the logits,
      ls r c = (x r c - M r) - log (∑ c', exp (x r c' - M r)),        M r = max (−∞) (the row's largest entry),
  picks the entry at the row's label by a gather, and negates it. A label word is first wrapped (a negative word has
  50257 added) and tested for the range [0, 50256]; outside the range the picked value is replaced by a fill
  pattern. When every label word, read unsigned, is below 50257, the word is nonnegative read signed, so the wrap
  keeps it, the range test holds, the gather reads x at (row, label), and the result is
      -((x r (label r) - M r) - log (∑ c, exp (x r c - M r))),
  the negative log-likelihood in the order the specification's `nllRef` writes it. No finiteness of x is used:
  max (−∞) a = a and 0 + s = s hold on all extended reals.
-/
import proofs.«416316_j58136677319100_1_alg».proof.Proof.RefRead
import proofs.«416316_j58136677319100_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.CrossEntropy Cert.ReferenceIdeal.ReadP

/-- A label word below 50257: it is nonnegative read signed, at most 50256, and its signed reading is its unsigned one. -/
theorem word_facts (w : BitVec 32) (hw : w.toNat < 50257) :
    IntOp.cmpi .slt w 0#32 = 0#1 ∧ IntOp.cmpi .sge w 0#32 = 1#1 ∧ IntOp.cmpi .sle w 50256#32 = 1#1 ∧ w.toInt.toNat = w.toNat := by
  have hi : w.toInt = (w.toNat : Int) := BitVec.toInt_eq_toNat_of_lt (by omega)
  have e0 : (0#32 : BitVec 32).toInt = 0 := by decide
  have e1 : (50256#32 : BitVec 32).toInt = 50256 := by decide
  refine ⟨?_, ?_, ?_, ?_⟩
  · apply eq_zero_of_ne_one; rw [IntOp.cmpi_slt, hi, e0]; omega
  · rw [IntOp.cmpi_sge, hi, e0]; omega
  · rw [IntOp.cmpi_sle, hi, e1]; omega
  · rw [hi]; exact Int.toNat_natCast _

variable [Facts]

/-- The label column read at a rank-2 index of the broadcast label array. -/
theorem v4_apply (t : (⟨S4096, .i32⟩ : BufTy).Contents (Elt Ideal)) (ht : ∀ r, (t r).toNat < 50257) (i : S4096x1.Idx) :
    val_main_call1_v4 (F := Ideal) t i = t (idx_main_v1 i) := by
  rw [val_main_call1_v4_apply, val_main_call1_v1_apply, val_main_v1_apply, val_main_call1_v0_apply, val_main_call1_c_apply,
    (word_facts _ (ht _)).1, select_zero]

theorem v11_apply (t : (⟨S4096, .i32⟩ : BufTy).Contents (Elt Ideal)) (ht : ∀ r, (t r).toNat < 50257) (i : S4096x1x1.Idx) :
    val_main_call1_v11 (F := Ideal) t i = 1#1 := by
  rw [val_main_call1_v11_apply, val_main_call1_v7_apply, val_main_call1_v10_apply, val_main_call1_v5_apply, v4_apply t ht,
    val_main_call1_v6_apply, val_main_call1_c_2_apply, val_main_call1_v9_apply, val_main_call1_v8_apply, val_main_call1_c_1_apply,
    (word_facts _ (ht _)).2.1, (word_facts _ (ht _)).2.2.1]
  rfl

/-- A reduction by and from 1 of an array of ones is 1. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  generalize ((List.finRange s.numel).map s.rowMajor.symm).filter (fun i => h.drop i = j) = l
  rw [hi]
  induction l with
  | nil => rfl
  | cons a l ih => rw [List.foldl_cons, hx]; exact ih

theorem v12_apply (t : (⟨S4096, .i32⟩ : BufTy).Contents (Elt Ideal)) (ht : ∀ r, (t r).toNat < 50257) (i : S4096x1.Idx) :
    val_main_call1_v12 (F := Ideal) t i = 1#1 :=
  reduce_andi_of_all _ _ _ _ (v11_apply t ht) (fun _ => rfl) i

/-- The operand index the gather reads at result index i: the row of i, and the label's column. -/
theorem gather_idx (t : (⟨S4096, .i32⟩ : BufTy).Contents (Elt Ideal)) (ht : ∀ r, (t r).toNat < 50257) (i : S4096x1.Idx) :
    gather_S4096x50257_S4096x1x1_S4096x1_n_1_0_0_1_2_11.operandIdx i (val_main_call1_v5 (F := Ideal) t) = ix2 (i 0) (label t (i 0)) := by
  funext a
  refine Fin.ext ?_
  match a with
  | ⟨0, _⟩ =>
    show gather_S4096x50257_S4096x1x1_S4096x1_n_1_0_0_1_2_11.start i (val_main_call1_v5 (F := Ideal) t) 0
      + gather_S4096x50257_S4096x1x1_S4096x1_n_1_0_0_1_2_11.batchCoord i 0 + gather_S4096x50257_S4096x1x1_S4096x1_n_1_0_0_1_2_11.offCoord i 0 = (i 0).val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show gather_S4096x50257_S4096x1x1_S4096x1_n_1_0_0_1_2_11.start i (val_main_call1_v5 (F := Ideal) t) 1
      + gather_S4096x50257_S4096x1x1_S4096x1_n_1_0_0_1_2_11.batchCoord i 1 + gather_S4096x50257_S4096x1x1_S4096x1_n_1_0_0_1_2_11.offCoord i 1 = (t (ix1 (i 0))).toNat % 50257
    rw [GatherDims.batchCoord_eq_zero _ _ _ (by decide), GatherDims.offCoord_eq_zero _ _ _ (by decide)]
    unfold GatherDims.start
    rw [dif_pos (by decide)]
    rw [val_main_call1_v5_apply, v4_apply t ht, (word_facts _ (ht _)).2.2.2]
    have hidx : ∀ c, idx_main_v1 (idx_main_call1_v5 (gather_S4096x50257_S4096x1x1_S4096x1_n_1_0_0_1_2_11.siIdx i c)) = ix1 (i 0) := by
      intro c; funext b
      match b with
      | ⟨0, _⟩ =>
        refine Fin.ext ?_
        have h0 : (gather_S4096x50257_S4096x1x1_S4096x1_n_1_0_0_1_2_11.siIdx i c 0).val = (i 0).val := rfl
        have h1 : (gather_S4096x50257_S4096x1x1_S4096x1_n_1_0_0_1_2_11.siIdx i c 1).val < 1 := (gather_S4096x50257_S4096x1x1_S4096x1_n_1_0_0_1_2_11.siIdx i c 1).isLt
        have h2 : (gather_S4096x50257_S4096x1x1_S4096x1_n_1_0_0_1_2_11.siIdx i c 2).val < 1 := (gather_S4096x50257_S4096x1x1_S4096x1_n_1_0_0_1_2_11.siIdx i c 2).isLt
        show (((gather_S4096x50257_S4096x1x1_S4096x1_n_1_0_0_1_2_11.siIdx i c 0).val * 1 + (gather_S4096x50257_S4096x1x1_S4096x1_n_1_0_0_1_2_11.siIdx i c 1).val) * 1
          + (gather_S4096x50257_S4096x1x1_S4096x1_n_1_0_0_1_2_11.siIdx i c 2).val) / 1 = (i 0).val
        omega
    rw [hidx]
    show min (t (ix1 (i 0))).toNat (50257 - 1) + 0 + 0 = _
    have := ht (ix1 (i 0))
    rw [Nat.mod_eq_of_lt this]
    omega

/-- The pattern 0xFF800000 (sign 1, exponent all ones, fraction 0) denotes −∞. -/
theorem neg_inf_bits : Ideal.ofBits .f32 0xFF800000#32 = (⊥ : EReal) := by simp [Ideal.ofBits, Ideal.ieee]

/-- The row maximum the reference reduces: the fold of max from −∞ over the row's columns is the supremum of the row. -/
theorem v0_apply (x : (⟨S4096x50257, .f32⟩ : BufTy).Contents (Elt Ideal)) (r : S4096.Idx) :
    val_main_call0_v0 (F := Ideal) x r = rowMax x (r 0) := by
  unfold val_main_call0_v0
  have hred : S4096x50257.Reduces [1] S4096 := by decide
  have h := Host.reduce_eq_fold_single (α := Ideal .f32) (FloatOps.maximumf (F := Ideal) (φ := .f32)) x (val_main_call0_cst (F := Ideal)) reducesTo_S4096x50257_S4096_d1 hred h_S_ r
  refine h.trans ?_
  rw [val_main_call0_cst_apply, Ideal.ofBits_def, neg_inf_bits]
  unfold rowMax Finset.sup
  refine Finset.fold_congr (fun k _ => ?_)
  exact congrArg x (funext fun a => Fin.ext (by match a with | ⟨0, _⟩ => rfl | ⟨1, _⟩ => rfl))

theorem v2_apply (x : (⟨S4096x50257, .f32⟩ : BufTy).Contents (Elt Ideal)) (r : S4096.Idx) :
    val_main_call0_v2 (F := Ideal) x r = rowMax x (r 0) := by
  rw [val_main_call0_v2_apply, val_main_call0_v1_apply, val_main_call0_cst_0_apply, v0_apply, Ideal.ofBits_def, neg_inf_bits]
  exact max_bot_left _

theorem v5_apply (x : (⟨S4096x50257, .f32⟩ : BufTy).Contents (Elt Ideal)) (k : S4096x50257.Idx) :
    val_main_call0_v5 (F := Ideal) x k = x k - rowMax x (k 0) := by
  rw [val_main_call0_v5_apply, val_main_call0_v4_apply, val_main_call0_v3_apply, v2_apply]
  rfl

theorem v7_apply (x : (⟨S4096x50257, .f32⟩ : BufTy).Contents (Elt Ideal)) (r : S4096.Idx) :
    val_main_call0_v7 (F := Ideal) x r = ∑ c : Fin 50257, Ideal.exp (x (ix2 (r 0) c) - rowMax x (r 0)) := by
  rw [val_main_call0_v7_apply, val_main_call0_cst_1_apply, Ideal.ofBits_def, Ideal.ofBits_zero_f32, zero_add]
  refine Finset.sum_congr rfl (fun c _ => ?_)
  rw [val_main_call0_v6_apply, v5_apply]
  have hi : idx_main_call0_v7 r c = ix2 (r 0) c := funext fun a => by match a with | ⟨0, _⟩ => rfl | ⟨1, _⟩ => rfl
  rw [hi]
  rfl

theorem v0main_apply (x : (⟨S4096x50257, .f32⟩ : BufTy).Contents (Elt Ideal)) (k : S4096x50257.Idx) :
    val_main_v0 (F := Ideal) x k
      = (x k - rowMax x (k 0)) - Ideal.log (∑ c : Fin 50257, Ideal.exp (x (ix2 (k 0) c) - rowMax x (k 0))) := by
  rw [val_main_v0_apply, v5_apply, val_main_call0_v10_apply, val_main_call0_v9_apply, val_main_call0_v8_apply, v7_apply]
  have hr : (idx_main_call0_v8 (idx_main_call0_v10 k)) 0 = k 0 := rfl
  rw [hr, Ideal.subf_def, Ideal.hostUnary_log_def]

/-- The reference's composed value is the negative log-likelihood, when every label is a column number. -/
theorem val_eq_nllRef (x : (⟨S4096x50257, .f32⟩ : BufTy).Contents (Elt Ideal)) (t : (⟨S4096, .i32⟩ : BufTy).Contents (Elt Ideal))
    (ht : ∀ r, (t r).toNat < 50257) : val_main_v4 (F := Ideal) x t = nllRef x t := by
  funext j
  have hj : (idx_main_v3 j) 0 = j 0 := Fin.ext (Nat.div_one _)
  rw [val_main_v4_apply, val_main_v3_apply, val_main_v2_apply, v12_apply t ht, select_one]
  have hg : val_main_call1_v13 (F := Ideal) x t (idx_main_v3 j) = val_main_v0 (F := Ideal) x (ix2 (j 0) (label t (j 0))) := by
    show val_main_v0 (F := Ideal) x (gather_S4096x50257_S4096x1x1_S4096x1_n_1_0_0_1_2_11.operandIdx (idx_main_v3 j) (val_main_call1_v5 (F := Ideal) t)) = _
    rw [gather_idx t ht, hj]
    rfl
  rw [hg, v0main_apply]
  rfl

/-- Every weakly fair execution of the reference terminates with its result at the negative log-likelihood of the
    launch's logits and labels, and the two arguments unchanged, when every label word read unsigned is a column number. -/
theorem run_nllRef (m' : (ℓ : Loc nD τ sig) → Buf (Elt Ideal) ℓ) (ρ' : Dev nD → PrngReg)
    (ht : ∀ (c : Dev nD) (r : S4096.Idx), (m' ((c.tc : Thread nD τ).loc main_arg1) r).toNat < 50257) :
    θ_run (defs (F := Ideal)) (onTc (τ := τ) (main (F := Ideal))) ⟨m', fun _ => 0, ρ'⟩ (fun r => ∀ c : Dev nD,
      r.2.mem ((c.tc : Thread nD τ).loc main_v4) = Cert.CrossEntropy.nllRef (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run (defs (F := Ideal)) _ _).mono
    (fun _ h c => ⟨by rw [(h c).1, val_main_v4_eq]; exact val_eq_nllRef _ _ (ht c), (h c).2⟩)
    (Cert.ReferenceIdeal.ValueP.run (F := Ideal) m' ρ')

end Cert.ReferenceIdeal.RefValue

end
-- ==== Proof.PreDecode.lean ====
/-
  The precondition read back. It is the conjunction of two statements over all entries: every logit has absolute
  value strictly below +∞ (so it is a real number), and every label word, read as a signed integer, lies in
  [0, 50257) (so, read unsigned, it is below 50257). Each "for all" is a reduction by "and" from 1 that came out 1.
-/
import proofs.«416316_j58136677319100_1_alg».proof.Pre_finite_inputs
import proofs.«416316_j58136677319100_1_alg».proof.Proof.Spec
import Idealize.ShloMosaic.Lib.ReduceAll

namespace Cert.CrossEntropy

open Idealize.ShloMosaic Idealize.ShloMosaic.ValueIdx

/-- A shape of rank zero has exactly one index. -/
instance subsingleton_scalar_idx : Subsingleton Cert.Pre_finite_inputs.S_.Idx := ⟨fun a b => funext fun d => d.elim0⟩

/-- A 32-bit word whose signed reading lies in [0, 50257) has its unsigned reading below 50257: a nonnegative
    signed reading is the unsigned one. -/
theorem toNat_lt_of_signed_range (w : BitVec 32) (h0 : (0#32 : BitVec 32).toInt ≤ w.toInt)
    (h1 : w.toInt < (50257#32 : BitVec 32).toInt) : w.toNat < 50257 := by
  have e0 : (0#32 : BitVec 32).toInt = 0 := by decide
  have e1 : (50257#32 : BitVec 32).toInt = 50257 := by decide
  rw [e0] at h0; rw [e1] at h1
  have hlt := w.isLt
  rw [BitVec.toInt_eq_toNat_cond] at h0 h1
  split at h0 <;> omega

/-- Under the precondition every label, read unsigned, is a column number. The label conjunct does not mention the
    floats, so this holds at every float instance. -/
theorem labels_in_range {F : FTy → Type} [FloatOps F] [Cert.Pre_finite_inputs.Facts] (x : FVec F Cert.Pre_finite_inputs.S4096x50257 .f32) (t : IVec Cert.Pre_finite_inputs.S4096 32)
    (h : Cert.Pre_finite_inputs.fn (F := F) x t = fun _ => 1#1) : ∀ r, (t r).toNat < 50257 := by
  intro r
  have h0 := congrFun h ValueIdx.ix0
  dsimp only [Cert.Pre_finite_inputs.fn] at h0
  -- the second conjunct: the "and" over all rows of (0 ≤ label) ∧ (label < 50257), both read signed
  obtain ⟨_, h2⟩ := IntOp.andi_eq_one.1 h0
  have h3 := Host.reduce_andi_all _ _ _ _ _ h2 r
  obtain ⟨h4, h5⟩ := IntOp.andi_eq_one.1 h3
  have h4' : IntOp.cmpi .sge (t r) 0#32 = 1#1 := h4
  have h5' : IntOp.cmpi .slt (t r) 50257#32 = 1#1 := h5
  exact toNat_lt_of_signed_range (t r) (IntOp.cmpi_sge.1 h4') (IntOp.cmpi_slt.1 h5')

/-- Under the precondition every logit is a real number: max x (-x) < ⊤ excludes both infinities. -/
theorem logits_real [Cert.Pre_finite_inputs.Facts] (x : FVec Ideal Cert.Pre_finite_inputs.S4096x50257 .f32) (t : IVec Cert.Pre_finite_inputs.S4096 32)
    (h : Cert.Pre_finite_inputs.fn (F := Ideal) x t = fun _ => 1#1) : ∀ i, IsReal (x i) := by
  intro i
  have h0 := congrFun h ValueIdx.ix0
  dsimp only [Cert.Pre_finite_inputs.fn] at h0
  -- the first conjunct: the "and" over all entries of |x| < +∞
  obtain ⟨h1, _⟩ := IntOp.andi_eq_one.1 h0
  have h3 := Host.reduce_andi_all _ _ _ _ _ h1 i
  have h4 : Ideal.cmp .olt (max (x i) (-x i)) (Ideal.ofBits .f32 0x7F800000#32) = 1#1 := h3
  -- the pattern 0x7F800000 (sign 0, exponent all ones, fraction 0) denotes +∞
  have hinf : Ideal.ofBits .f32 0x7F800000#32 = (⊤ : EReal) := by simp [Ideal.ofBits, Ideal.ieee]
  rw [hinf] at h4
  have h5 : max (x i) (-x i) < (⊤ : EReal) := by
    by_contra hn
    have h0' : Ideal.cmp .olt (max (x i) (-x i)) (⊤ : EReal) = 0#1 := by simp [Ideal.cmp, hn]
    rw [h0'] at h4
    exact absurd h4 (by decide)
  rw [max_lt_iff] at h5
  obtain ⟨h6, h7⟩ := h5
  generalize x i = y at h6 h7 ⊢
  induction y using EReal.rec with
  | bot => exact absurd h7 (by simp)
  | coe a => exact ⟨a, rfl⟩
  | top => exact absurd h6 (by simp)

end Cert.CrossEntropy
-- ==== Proof.lean ====
/-
  The certificate: the cross-entropy kernel — per row of a 4096 × 50257 table of logits, the negative log-likelihood of
  the row's label, accumulated over fifty column blocks as a running maximum, a running sum of exponentials rescaled
  whenever the maximum grows, and a running pick of the label's entry — against its reference, a log-softmax followed
  by picking the label's entry and negating.  Over the extended reals, for real logits and labels that are columns of
  the table, both are  M + log (∑ exp (x - M)) - x[label]  with  M  the row's maximum: the kernel's statistics after
  each column block are the prefix maximum, prefix sum and prefix pick of the columns seen so far (the rescaling
  identity  exp (a - b) · ∑ exp (x - a) = ∑ exp (x - b)  is the one place finiteness is used), the padding columns
  of the last block, filled with the constant the idealization names -∞, contribute  max ⊥  and  exp ⊥ = 0 ; the
  reference's order of operations differs by  -((a - M) - s) = M + s - a  on reals.
  The frames: each program runs to the end without a fault and leaves its arguments unchanged; for the two kernel
  programs from the run of the pipeline over the body's three cases (first, middle and last column block of a row
  block), for the reference from its run.
-/
import proofs.«416316_j58136677319100_1_alg».proof.Defs
import proofs.«416316_j58136677319100_1_alg».proof.Proof.Gen.Kernel
import proofs.«416316_j58136677319100_1_alg».proof.Proof.Gen.KernelIdeal
import proofs.«416316_j58136677319100_1_alg».proof.Proof.Gen.ReferenceIdeal
import proofs.«416316_j58136677319100_1_alg».proof.Proof.Gen.Pre_finite_inputs
import proofs.«416316_j58136677319100_1_alg».proof.Proof.KBody
import proofs.«416316_j58136677319100_1_alg».proof.Proof.KernelValue
import proofs.«416316_j58136677319100_1_alg».proof.Proof.RefValue
import proofs.«416316_j58136677319100_1_alg».proof.Proof.PreDecode
import proofs.«416316_j58136677319100_1_alg».proof.Proof.Softmax
import Idealize.ShloMosaic.Adequacy
import Idealize.ShloMosaic.Init

noncomputable section

namespace Cert.Proof

open Idealize.ShloMosaic Idealize.ShloMosaic.TcCoe Idealize.SL.Sem Cert.CrossEntropy

/-- Under the precondition every label is a column of the table, whichever float instance reads the logits. -/
theorem labels_word (m : (ℓ : Loc Cert.Kernel.nD Cert.Kernel.τ Cert.Kernel.sig) → Buf (Elt Bits) ℓ) (h : Cert.Pre_Kernel m) :
    Cert.Kernel.Hand.LabelsOk m := fun c r => labels_in_range _ _ (h c) r

theorem labels_ideal (m : (ℓ : Loc Cert.KernelIdeal.nD Cert.KernelIdeal.τ Cert.KernelIdeal.sig) → Buf (Elt Ideal) ℓ)
    (h : Cert.Pre_KernelIdeal m) : Cert.KernelIdeal.Hand.LabelsOk m := fun c r => labels_in_range _ _ (h c) r

theorem frame_k : Cert.frame_Kernel := fun m ρ h => Cert.Kernel.Hand.frame m ρ (labels_word m h)

theorem frame_ki : Cert.frame_KernelIdeal := fun m ρ h => Cert.KernelIdeal.Hand.frame m ρ (labels_ideal m h)

theorem frame_ri : Cert.frame_ReferenceIdeal := fun m ρ h =>
  (θ_run Cert.ReferenceIdeal.defs _ _).mono (fun _ hh c => (hh c).2)
    (Cert.ReferenceIdeal.RefValue.run_nllRef m ρ fun c r => labels_in_range _ _ (h c) r)

/-- The one rewrite of the idealization: the mask's fill constant is named, and the name's value is -∞. -/
theorem preserves : Cert.preserves_Kernel_KernelIdeal :=
  IdealRules.named_const.statement Cert.KernelIdeal.κ "neg_big" .f32 0xFF333332#32 ⊥ rfl

/-- Both programs end at the rows' negative log-likelihoods of the common arguments. -/
theorem algebraic : Cert.algebraic_KernelIdeal_ReferenceIdeal := by
  intro m ρ m' ρ' hpre hagree
  have hT := labels_ideal m hpre
  have hx : ∀ c i, IsReal (Cert.KernelIdeal.Hand.xin m c i) := fun c => logits_real _ _ (hpre c)
  refine ⟨fun c => nll (Cert.KernelIdeal.Hand.xin m c) (Cert.KernelIdeal.Hand.tin m c),
    Cert.KernelIdeal.Hand.run_nll m ρ hT hx, ?_⟩
  refine (θ_run Cert.ReferenceIdeal.defs _ _).mono (fun _ h c => ⟨(h c).1.trans ?_, (h c).2⟩)
    (Cert.ReferenceIdeal.RefValue.run_nllRef m' ρ' fun c r => by rw [(hagree c).2]; exact hT c r)
  rw [(hagree c).1, (hagree c).2]
  exact (nll_eq_nllRef _ (hx c) _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
